-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256 : Shape := ⟨2, ![64, 256]⟩
abbrev S524288x512 : Shape := ⟨2, ![524288, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩

class Facts : Prop where
  bcast_S_S524288x512 : S_.BroadcastsInDim S524288x512 (![] : Fin 0 → Fin S524288x512.rank)
  reducesTo_S524288x512_S_d0_1 : S524288x512.ReducesTo [0, 1] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_

variable [Facts]

def fn_part2 {F : FTy → Type} [FloatOps F] (main_arg0 : IVec S64x256 32) (main_v32 : IVec S_ 1) (main_c_12 : IVec S_ 32) : IVec S_ 1 :=
  let main_v33 : IVec S64x256 32 := broadcastInDim S64x256 ![] bcast_S_S64x256 main_c_12
  let main_v34 : IVec S64x256 1 := cmpi .slt main_arg0 main_v33
  let main_c_13 : IVec S_ 1 := constantI S_ 1 1#1
  let main_v35 : IVec S_ 1 := (fun x v => Host.reduce IntOp.andi x v reducesTo_S64x256_S_d0_1 h_S_) main_v34 main_c_13
  let main_v36 : IVec S_ 1 := andi main_v32 main_v35
  main_v36

def fn_part1 {F : FTy → Type} [FloatOps F] (main_arg0 : IVec S64x256 32) (main_arg5 : FVec F S512x256 .f32) (main_arg6 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 0#32
  let main_v29 : IVec S64x256 32 := broadcastInDim S64x256 ![] bcast_S_S64x256 main_c_10
  let main_v30 : IVec S64x256 1 := cmpi .sge main_arg0 main_v29
  let main_c_11 : IVec S_ 1 := constantI S_ 1 1#1
  let main_v31 : IVec S_ 1 := (fun x v => Host.reduce IntOp.andi x v reducesTo_S64x256_S_d0_1 h_S_) main_v30 main_c_11
  let main_v32 : IVec S_ 1 := andi main_v28 main_v31
  let main_c_12 : IVec S_ 32 := constantI S_ 32 2048#32
  fn_part2 (F := F) main_arg0 main_v32 main_c_12

def fn {F : FTy → Type} [FloatOps F] (main_arg0 : IVec S64x256 32) (main_arg1 : FVec F S524288x512 .f32) (main_arg2 : FVec F S512 .f32) (main_arg3 : FVec F S512x512 .f32) (main_arg4 : FVec F S512 .f32) (main_arg5 : FVec F S512x256 .f32) (main_arg6 : FVec F S256 .f32) : IVec S_ 1 :=
  let main_v0 : FVec F S524288x512 .f32 := Host.absf main_arg1
  let main_cst : FVec F S_ .f32 := constant S_ .f32 0x7F800000#32
  let main_v1 : FVec F S524288x512 .f32 := broadcastInDim S524288x512 ![] bcast_S_S524288x512 main_cst
  let main_v2 : IVec S524288x512 1 := cmpf .olt main_v0 main_v1
  let main_c : IVec S_ 1 := constantI S_ 1 1#1
  let main_v3 : IVec S_ 1 := (fun x v => Host.reduce IntOp.andi x v reducesTo_S524288x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg5 main_arg6 main_v13 main_v16
-- ==== Kernel.lean ====
abbrev S64x256 : Shape := ⟨2, ![64, 256]⟩
abbrev S524288x512 : Shape := ⟨2, ![524288, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x64 : Shape := ⟨2, ![256, 64]⟩
abbrev S256x64x1 : Shape := ⟨3, ![256, 64, 1]⟩
abbrev S256x2048x512 : Shape := ⟨3, ![256, 2048, 512]⟩
abbrev S1x512 : Shape := ⟨2, ![1, 512]⟩
abbrev S1x256 : Shape := ⟨2, ![1, 256]⟩
abbrev S4x64x1 : Shape := ⟨3, ![4, 64, 1]⟩
abbrev S4x2048x512 : Shape := ⟨3, ![4, 2048, 512]⟩
abbrev S64x512 : Shape := ⟨2, ![64, 512]⟩
abbrev S1x2048 : Shape := ⟨2, ![1, 2048]⟩
abbrev S1x64x1 : Shape := ⟨3, ![1, 64, 1]⟩
abbrev S64x1 : Shape := ⟨2, ![64, 1]⟩
abbrev S64x2048 : Shape := ⟨2, ![64, 2048]⟩
abbrev S1x2048x512 : Shape := ⟨3, ![1, 2048, 512]⟩
abbrev S2048x512 : Shape := ⟨2, ![2048, 512]⟩

abbrev nBuf : Space → Nat
  | .hbm => 14
  | .vmem => 11
  | .smem => 0
  | _ => 0

abbrev bufTy : (tb : Table) → Fin (tcTables nBuf tb) → BufTy
  | .hbm, ⟨0, _⟩ => ⟨S64x256, .i32⟩
  | .hbm, ⟨1, _⟩ => ⟨S524288x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x64, .i32⟩
  | .hbm, ⟨8, _⟩ => ⟨S256x64x1, .i32⟩
  | .hbm, ⟨9, _⟩ => ⟨S256x2048x512, .f32⟩
  | .hbm, ⟨10, _⟩ => ⟨S1x512, .f32⟩
  | .hbm, ⟨11, _⟩ => ⟨S1x512, .f32⟩
  | .hbm, ⟨12, _⟩ => ⟨S1x256, .f32⟩
  | .hbm, ⟨13, _⟩ => ⟨S64x256, .f32⟩
  | .local _ .vmem, ⟨0, _⟩ => ⟨S4x64x1, .i32⟩
  | .local _ .vmem, ⟨1, _⟩ => ⟨S4x64x1, .i32⟩
  | .local _ .vmem, ⟨2, _⟩ => ⟨S4x2048x512, .f32⟩
  | .local _ .vmem, ⟨3, _⟩ => ⟨S4x2048x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S512x256, .f32⟩
  | .local _ .vmem, ⟨8, _⟩ => ⟨S1x256, .f32⟩
  | .local _ .vmem, ⟨9, _⟩ => ⟨S64x256, .f32⟩
  | .local _ .vmem, ⟨10, _⟩ => ⟨S64x512, .f32⟩
  | _, _ => ⟨S64x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v62 : BitVec 1 := Scalar.cmpi .eq arg0 c63_i32
  let v63 : BitVec 32 := Scalar.extui v62
  let c0_i32_29 : BitVec 32 := 0#32
  let v64 : BitVec 1 := Scalar.cmpi .ne v63 c0_i32_29
  v64

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  transposes_S64x256_S256x64_1_0 : S64x256.Transposes [1, 0] S256x64
  bcast_S256x64_S256x64x1_0_1 : S256x64.BroadcastsInDim S256x64x1 (![0, 1] : Fin 2 → Fin S256x64x1.rank)
  shapeCasts_S524288x512_S256x2048x512 : S524288x512.ShapeCasts S256x2048x512
  shapeCasts_S512_S1x512 : S512.ShapeCasts S1x512
  shapeCasts_S256_S1x256 : S256.ShapeCasts S1x256
  inb_S64x512_S64x512_0_0 : ∀ a, (![0, 0] : Fin 2 → Nat) a + S64x512.size a ≤ S64x512.size a
  h_S64x512 : 0 < S64x512.numel
  shapeCasts_S64x512_S64x512 : S64x512.ShapeCasts S64x512
  iota_S1x2048_d1_w32 : S1x2048.Iotas .tc 32 [1]
  inb_S4x64x1_S1x64x1_0_0_0 : ∀ a, (![0, 0, 0] : Fin 3 → Nat) a + S1x64x1.size a ≤ S4x64x1.size a
  h_S1x64x1 : 0 < S1x64x1.numel
  shapeCasts_S1x64x1_S64x1 : S1x64x1.ShapeCasts S64x1
  broadcasts_S64x1_S64x2048 : S64x1.Broadcasts S64x2048
  broadcasts_S1x2048_S64x2048 : S1x2048.Broadcasts S64x2048
  natLt_1_32 : 1 < 32
  bitsLt_bf16_f32 : FTy.bits .bf16 < FTy.bits .f32
  inb_S4x2048x512_S1x2048x512_0_0_0 : ∀ a, (![0, 0, 0] : Fin 3 → Nat) a + S1x2048x512.size a ≤ S4x2048x512.size a
  h_S1x2048x512 : 0 < S1x2048x512.numel
  shapeCasts_S1x2048x512_S2048x512 : S1x2048x512.ShapeCasts S2048x512
  inb_S4x64x1_S1x64x1_1_0_0 : ∀ a, (![1, 0, 0] : Fin 3 → Nat) a + S1x64x1.size a ≤ S4x64x1.size a
  inb_S4x2048x512_S1x2048x512_1_0_0 : ∀ a, (![1, 0, 0] : Fin 3 → Nat) a + S1x2048x512.size a ≤ S4x2048x512.size a
  inb_S4x64x1_S1x64x1_2_0_0 : ∀ a, (![2, 0, 0] : Fin 3 → Nat) a + S1x64x1.size a ≤ S4x64x1.size a
  inb_S4x2048x512_S1x2048x512_2_0_0 : ∀ a, (![2, 0, 0] : Fin 3 → Nat) a + S1x2048x512.size a ≤ S4x2048x512.size a
  inb_S4x64x1_S1x64x1_3_0_0 : ∀ a, (![3, 0, 0] : Fin 3 → Nat) a + S1x64x1.size a ≤ S4x64x1.size a
  inb_S4x2048x512_S1x2048x512_3_0_0 : ∀ a, (![3, 0, 0] : Fin 3 → Nat) a + S1x2048x512.size a ≤ S4x2048x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  dot_S64x2048_S2048x512_S64x512_1_0_0_1_n_n_wf : DotDims.WF S64x2048 S2048x512 S64x512 [1] [0] [0] [1] [] []
  dot_S64x512_S512x512_S64x512_1_0_0_1_n_n_wf : DotDims.WF S64x512 S512x512 S64x512 [1] [0] [0] [1] [] []
  dot_S64x512_S512x256_S64x256_1_0_0_1_n_n_wf : DotDims.WF S64x512 S512x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x1.size a ≤ S256x64x1.size a
  hwx0_0 : ∀ i : grid0.Coords, EltTy.bits .i32 = 32 ∨ (Rect.block (s := S256x64x1) S4x64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2048x512.size a ≤ S256x2048x512.size a
  hwx0_1 : ∀ i : grid0.Coords, EltTy.bits .f32 = 32 ∨ (Rect.block (s := S256x2048x512) S4x2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)

variable [Facts₀]

def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf

abbrev win0_0 : Pipeline.Window sig grid0 :=
  Pipeline.Window.ofSpec (Memref.whole main_v1) S4x64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S64x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64x256 : Shape := ⟨2, ![64, 256]⟩
abbrev S524288x512 : Shape := ⟨2, ![524288, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩
abbrev S1x256 : Shape := ⟨2, ![1, 256]⟩
abbrev S64x256x1 : Shape := ⟨3, ![64, 256, 1]⟩
abbrev S64x256x512 : Shape := ⟨3, ![64, 256, 512]⟩
abbrev S64x512 : Shape := ⟨2, ![64, 512]⟩
abbrev S1x512 : Shape := ⟨2, ![1, 512]⟩

abbrev nBuf : Space → Nat
  | .hbm => 42
  | .vmem => 0
  | .smem => 0
  | _ => 0

abbrev bufTy : (tb : Table) → Fin (tcTables nBuf tb) → BufTy
  | .hbm, ⟨0, _⟩ => ⟨S64x256, .i32⟩
  | .hbm, ⟨1, _⟩ => ⟨S524288x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S1x256, .i32⟩
  | .hbm, ⟨12, _⟩ => ⟨S64x256, .i32⟩
  | .hbm, ⟨13, _⟩ => ⟨S64x256, .i32⟩
  | .hbm, ⟨14, _⟩ => ⟨S_, .i32⟩
  | .hbm, ⟨15, _⟩ => ⟨S64x256, .i32⟩
  | .hbm, ⟨16, _⟩ => ⟨S64x256, .i1⟩
  | .hbm, ⟨17, _⟩ => ⟨S_, .i32⟩
  | .hbm, ⟨18, _⟩ => ⟨S64x256, .i32⟩
  | .hbm, ⟨19, _⟩ => ⟨S64x256, .i32⟩
  | .hbm, ⟨20, _⟩ => ⟨S64x256, .i32⟩
  | .hbm, ⟨21, _⟩ => ⟨S64x256x1, .i32⟩
  | .hbm, ⟨22, _⟩ => ⟨S64x256x512, .f32⟩
  | .hbm, ⟨23, _⟩ => ⟨S_, .f32⟩
  | .hbm, ⟨24, _⟩ => ⟨S64x512, .f32⟩
  | .hbm, ⟨25, _⟩ => ⟨S1x512, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S1x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S64x256, .f32⟩
  | .hbm, ⟨39, _⟩ => ⟨S1x256, .f32⟩
  | .hbm, ⟨40, _⟩ => ⟨S64x256, .f32⟩
  | .hbm, ⟨41, _⟩ => ⟨S64x256, .f32⟩
  | _, _ => ⟨S64x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_cst : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  reducesTo_S64x256x512_S64x512_d1 : S64x256x512.ReducesTo [1] S64x512
  h_S_ : 0 < S_.numel
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  gather_S524288x512_S64x256x1_S64x256x512_2_0_n_n_0_2_1512_wf : GatherDims.WF S524288x512 S64x256x1 S64x256x512 [2] [0] [] [0] [] 2 ![1, 512]
  dot_S64x512_S512x512_S64x512_1_0_0_1_n_n_wf : DotDims.WF S64x512 S512x512 S64x512 [1] [0] [0] [1] [] []
  dot_S64x512_S512x256_S64x256_1_0_0_1_n_n_wf : DotDims.WF S64x512 S512x256 S64x256 [1] [0] [0] [1] [] []

variable [Facts₀]

def gather_S524288x512_S64x256x1_S64x256x512_2_0_n_n_0_2_1512 : GatherDims S524288x512 S64x256x1 S64x256x512 where
  offsetDims := [2]
  collapsedSliceDims := [0]
  operandBatchingDims := []
  startIndicesBatchingDims := []
  startIndexMap := [0]
  indexVectorDim := 2
  sliceSizes := ![1, 512]
  wf := gather_S524288x512_S64x256x1_S64x256x512_2_0_n_n_0_2_1512_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf

class Facts : Prop extends Facts₀ where

variable [Facts]
-- ==== Proof.Spec.lean ====
/-
  The function both programs compute, index by index, over the extended reals.

  `x : i32[64, 256]` holds one token per (batch row, position); `W1 : [256 · 2048, 512]` has one row per
  (position, token), row `p · 2048 + t`. The first layer sums, over the 256 positions, the row its token selects:
  `e[b, h] = Σ_p W1[p · 2048 + x[b, p], h]`. Then `h1 = max (e + b1) 0`, `h2 = max (h1 · W2 + b2) 0`,
  `out = h2 · W3 + b3`, the matrix products plain sums over the 512 hidden units.

  The row a token selects is written with the token reduced modulo 2048, so that it is a row of the table for
  every word; for a token in `[0, 2048)` the reduction does nothing.
-/
import Idealize.ShloMosaic.PureOps.Ideal
import Idealize.ShloMosaic.Lib.ValueIdx

noncomputable section

namespace Cert.EmbedMlp

open Idealize.ShloMosaic Idealize.ShloMosaic.ValueIdx

/-- The tokens: one 32-bit word per (batch row, position). -/
abbrev Tokens : Type := (⟨2, ![64, 256]⟩ : Shape).Idx → BitVec 32

/-- The table row of position `p`'s token in batch row `b`: `p · 2048 + x[b, p]` (the token modulo 2048). -/
def tokRow (x : Tokens) (b : Fin 64) (p : Fin 256) : Fin 524288 :=
  ⟨p.val * 2048 + (x (ix2 b p)).toNat % 2048, by have := p.isLt; omega⟩

/-- The first layer before its bias: the sum over the positions of the table rows the tokens select. -/
def embedSum (x : Tokens) (W1 : (⟨2, ![524288, 512]⟩ : Shape).Idx → EReal) : (⟨2, ![64, 512]⟩ : Shape).Idx → EReal :=
  fun i => ∑ p : Fin 256, W1 (ix2 (tokRow x (i 0) p) (i 1))

/-- The first hidden layer of an accumulated sum `e`: `max (e + b1) 0`. -/
def hidden1 (e : (⟨2, ![64, 512]⟩ : Shape).Idx → EReal) (b1 : (⟨1, ![512]⟩ : Shape).Idx → EReal) (b : Fin 64) (h : Fin 512) :
    EReal :=
  max (e (ix2 b h) + b1 (ix1 h)) 0

/-- The second hidden layer: `max (h1 · W2 + b2) 0`. -/
def hidden2 (e : (⟨2, ![64, 512]⟩ : Shape).Idx → EReal) (b1 : (⟨1, ![512]⟩ : Shape).Idx → EReal)
    (W2 : (⟨2, ![512, 512]⟩ : Shape).Idx → EReal) (b2 : (⟨1, ![512]⟩ : Shape).Idx → EReal) (b : Fin 64) (j : Fin 512) : EReal :=
  max ((∑ h : Fin 512, hidden1 e b1 b h * W2 (ix2 h j)) + b2 (ix1 j)) 0

/-- The layers after the accumulated sum `e`: `h2 · W3 + b3`. -/
def mlpTail (e : (⟨2, ![64, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 256]⟩ : Shape).Idx → EReal) (b3 : (⟨1, ![256]⟩ : Shape).Idx → EReal) :
    (⟨2, ![64, 256]⟩ : Shape).Idx → EReal :=
  fun i => (∑ j : Fin 512, hidden2 e b1 W2 b2 (i 0) j * W3 (ix2 j (i 1))) + b3 (ix1 (i 1))

/-- The whole result as one function of the seven arguments. -/
def mlpOut (x : Tokens) (W1 : (⟨2, ![524288, 512]⟩ : Shape).Idx → EReal) (b1 : (⟨1, ![512]⟩ : Shape).Idx → EReal)
    (W2 : (⟨2, ![512, 512]⟩ : Shape).Idx → EReal) (b2 : (⟨1, ![512]⟩ : Shape).Idx → EReal)
    (W3 : (⟨2, ![512, 256]⟩ : Shape).Idx → EReal) (b3 : (⟨1, ![256]⟩ : Shape).Idx → EReal) :
    (⟨2, ![64, 256]⟩ : Shape).Idx → EReal :=
  mlpTail (embedSum x W1) b1 W2 b2 W3 b3

/-- Every token is a token number: below 2048 read unsigned (so also non-negative read signed). -/
def TokensInRange (x : Tokens) : Prop := ∀ (b : Fin 64) (p : Fin 256), (x (ix2 b p)).toNat < 2048

/-- For a token number the row is `p · 2048 + x[b, p]` itself. -/
theorem tokRow_val (x : Tokens) (hx : TokensInRange x) (b : Fin 64) (p : Fin 256) :
    (tokRow x b p).val = p.val * 2048 + (x (ix2 b p)).toNat := by
  show p.val * 2048 + (x (ix2 b p)).toNat % 2048 = _
  rw [Nat.mod_eq_of_lt (hx b p)]

end Cert.EmbedMlp

end
-- ==== Proof.PreRange.lean ====
/-
  The precondition, read: every token is a token number.

  The precondition's last two conjuncts are `jnp.all(x >= 0)` and `jnp.all(x < 2048)`: each a reduction by `and`
  of a signed compare of every token with a constant. Where the whole predicate is 1, both reductions are 1, so every
  compare is 1, and a word that is at least 0 and below 2048 read signed is below 2048 read unsigned.
-/
import proofs.«409042_j76373108457716_1_alg».proof.Pre_finite_inputs
import proofs.«409042_j76373108457716_1_alg».proof.Proof.Spec
import Idealize.ShloMosaic.Lib.ReduceAll
import Idealize.ShloMosaic.Lib.StableHlo.Predicate

noncomputable section

namespace Cert.EmbedMlp

open Idealize.ShloMosaic Idealize.ShloMosaic.ValueIdx

/-- The result of a reduction over all axes has one index. -/
private instance subsingleton_idx0 : Subsingleton Cert.Pre_finite_inputs.S_.Idx := ⟨fun a b => funext fun d => d.elim0⟩

/-- A word that is at least 0 and below 2048 read signed is below 2048 read unsigned: it is not negative, so its
    two readings agree. -/
private theorem toNat_lt_of_signed {w : BitVec 32} (h0 : IntOp.cmpi .sge w 0#32 = 1#1) (h1 : IntOp.cmpi .slt w 2048#32 = 1#1) :
    w.toNat < 2048 := by
  rw [IntOp.cmpi_sge] at h0
  rw [IntOp.cmpi_slt] at h1
  have z0 : (0#32 : BitVec 32).toInt = 0 := by decide
  have z1 : (2048#32 : BitVec 32).toInt = 2048 := by decide
  rw [z0] at h0
  rw [z1] at h1
  rw [BitVec.toInt_eq_toNat_cond] at h0 h1
  split at h0 <;> omega

/-- Where the precondition holds, every token lies in `[0, 2048)`. -/
theorem tokensInRange_of_pre [Cert.Pre_finite_inputs.Facts] {F : FTy → Type} [FloatOps F]
    (x0 : IVec Cert.Pre_finite_inputs.S64x256 32) (x1 : FVec F Cert.Pre_finite_inputs.S524288x512 .f32)
    (x2 : FVec F Cert.Pre_finite_inputs.S512 .f32) (x3 : FVec F Cert.Pre_finite_inputs.S512x512 .f32)
    (x4 : FVec F Cert.Pre_finite_inputs.S512 .f32) (x5 : FVec F Cert.Pre_finite_inputs.S512x256 .f32)
    (x6 : FVec F Cert.Pre_finite_inputs.S256 .f32)
    (h : Cert.Pre_finite_inputs.fn (F := F) x0 x1 x2 x3 x4 x5 x6 = fun _ => 1#1) : TokensInRange x0 := by
  intro b p
  have e := congrFun h ValueIdx.ix0
  -- the predicate is `and`s of the seven `jnp.all`s; only the last two are opened
  dsimp only [Cert.Pre_finite_inputs.fn, Cert.Pre_finite_inputs.fn_part1, Cert.Pre_finite_inputs.fn_part2, andi] at e
  obtain ⟨e32, e35⟩ := IntOp.andi_eq_one.1 e
  obtain ⟨-, e31⟩ := IntOp.andi_eq_one.1 e32
  -- each reduction by `and` that is 1 had a 1 at (b, p)
  have c0 := Host.reduce_andi_all _ _ _ _ _ e31 (ix2 b p)
  have c1 := Host.reduce_andi_all _ _ _ _ _ e35 (ix2 b p)
  exact toNat_lt_of_signed c0 c1

end Cert.EmbedMlp

end
-- ==== Proof.LibGatherRowsGrid.lean ====
/-
  A row gather by a grid of row numbers, read at an index.

  `W[idx]` for a rank-2 table `W : [N, C]` and a rank-2 array `idx : [A, B]` of row numbers prints as a
  `stablehlo.gather` of `W` by the start indices `[A, B, 1]` (axis 0 collapsed, axis 1 the one offset axis, slice
  sizes 1 × C, the index vector on the last axis), with result `[A, B, C]`. Read at `(a, b, c)` it is the table's
  entry `(idx[a, b], c)` whenever that row number, read signed, is a row of the table. The statement takes an
  arbitrary dimension-number record with equations naming its fields, so it applies to any record whose fields
  are those lists by `rfl`.
-/
import Idealize.ShloMosaic.PureOps.ShapeOps
import Idealize.ShloMosaic.Lib.ValueIdx

noncomputable section

namespace Idealize.ShloMosaic.RowsGrid

open Idealize.ShloMosaic Idealize.ShloMosaic.ValueIdx

variable {N C A B w : Nat} {α : Type}

/-- A signed start index that is a row number `n < N`, clamped into `[0, N − 1]`, is `n`. -/
private theorem clamp_eq {z : Int} (n : Fin N) (hz : z = (n.val : Int)) : min z.toNat (N - 1) = n.val := by
  rw [hz, Int.toNat_natCast]
  have := n.isLt
  omega

/-- Result index `(a, b, c)` reads the operand at `(idx[a, b], c)`, the start inside the operand. -/
private theorem operandIdx_eq (wf) (idx : IVec ⟨3, ![A, B, 1]⟩ w) (a : Fin A) (b : Fin B) (c : Fin C) (n : Fin N)
    (hn : (idx (ix3 a b 0)).toInt = (n.val : Int)) :
    (⟨[2], [0], [], [], [0], 2, ![1, C], wf⟩ : GatherDims ⟨2, ![N, C]⟩ ⟨3, ![A, B, 1]⟩ ⟨3, ![A, B, C]⟩).operandIdx
        (ix3 a b c) idx = ix2 n c := by
  funext k
  refine Fin.ext ?_
  show GatherDims.start _ (ix3 a b c) idx k + GatherDims.batchCoord _ (ix3 a b c) k + GatherDims.offCoord _ (ix3 a b c) k = _
  rw [GatherDims.batchCoord_eq_zero _ _ _ List.not_mem_nil, Nat.add_zero]
  match k with
  | ⟨0, _⟩ =>
    show GatherDims.start _ (ix3 a b c) idx 0 + GatherDims.offCoord _ (ix3 a b c) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[2], [0], [], [], [0], 2, ![1, C], wf⟩ :
        GatherDims ⟨2, ![N, C]⟩ ⟨3, ![A, B, 1]⟩ ⟨3, ![A, B, C]⟩) (ix3 a b c)
        ⟨List.idxOf (0 : Fin 2) [0], List.idxOf_lt_length_iff.2 List.mem_cons_self⟩ = ix3 a b 0 := by
      funext b'; refine Fin.ext ?_
      match b' with
      | ⟨0, _⟩ => rfl
      | ⟨1, _⟩ => rfl
      | ⟨2, _⟩ => rfl
    rw [hsi]
    exact clamp_eq n hn
  | ⟨1, _⟩ =>
    have hs : GatherDims.start (⟨[2], [0], [], [], [0], 2, ![1, C], wf⟩ :
        GatherDims ⟨2, ![N, C]⟩ ⟨3, ![A, B, 1]⟩ ⟨3, ![A, B, C]⟩) (ix3 a b c) idx 1 = 0 := by
      unfold GatherDims.start; rw [dif_neg (by simp)]
    show GatherDims.start _ (ix3 a b c) idx 1 + GatherDims.offCoord _ (ix3 a b c) 1 = c.val
    rw [hs, Nat.zero_add]; rfl

/-- `W[idx]` over a rank-2 table and a rank-2 array of row numbers READ AT (a, b, c), the row number inside the
    table: the table's entry (idx[a, b], c). -/
theorem gather_rows_grid_apply (d : GatherDims ⟨2, ![N, C]⟩ ⟨3, ![A, B, 1]⟩ ⟨3, ![A, B, C]⟩)
    (hod : d.offsetDims = [2]) (hcs : d.collapsedSliceDims = [0]) (hob : d.operandBatchingDims = [])
    (hsb : d.startIndicesBatchingDims = []) (hsm : d.startIndexMap = [0]) (hiv : d.indexVectorDim = 2)
    (hss : d.sliceSizes = ![1, C])
    (x : (⟨2, ![N, C]⟩ : Shape).Idx → α) (idx : IVec ⟨3, ![A, B, 1]⟩ w) (a : Fin A) (b : Fin B) (c : Fin C) (n : Fin N)
    (hn : (idx (ix3 a b 0)).toInt = (n.val : Int)) :
    Host.gather d x idx (ix3 a b c) = x (ix2 n c) := by
  obtain ⟨od, cs, ob, sb, sm, iv, ss, wf⟩ := d
  dsimp only at hod hcs hob hsb hsm hiv hss
  subst hod hcs hob hsb hsm hiv hss
  unfold Host.gather
  rw [operandIdx_eq wf idx a b c n hn]

end Idealize.ShloMosaic.RowsGrid

end
-- ==== Proof.RefValue.lean ====
/-
  The reference's result is the specification.

  The reference adds `p · 2048` to each token (an iota times 2048, laid along the batch rows), wraps a negative
  index by the table's height, gathers that row of `W1` for every (batch row, position), sums the rows over the
  positions from 0, and applies the three layers. For token numbers the index `p · 2048 + x[b, p]` is a row of
  the table, nothing wraps and nothing is clamped, so the gathered row is the one the specification names.
-/
import proofs.«409042_j76373108457716_1_alg».proof.Proof.Gen.ReferenceIdeal.Read
import proofs.«409042_j76373108457716_1_alg».proof.Proof.Spec
import proofs.«409042_j76373108457716_1_alg».proof.Proof.LibGatherRowsGrid

noncomputable section

namespace Cert.EmbedMlp

open Idealize.ShloMosaic Idealize.ShloMosaic.ValueIdx
open Cert.ReferenceIdeal Cert.ReferenceIdeal.Gen Cert.ReferenceIdeal.Read

/-! ## The row number, as words -/

/-- For a token number `w < 2048` and a position `p < 256` the 32-bit sum `w + p · 2048` does not wrap. -/
private theorem row_sum_toNat (w : BitVec 32) (hw : w.toNat < 2048) (p : Nat) (hp : p < 256) :
    (IntOp.addi w (IntOp.muli (BitVec.ofNat 32 p) 2048#32)).toNat = p * 2048 + w.toNat := by
  unfold IntOp.addi IntOp.muli
  rw [BitVec.toNat_add, BitVec.toNat_mul, BitVec.toNat_ofNat, BitVec.toNat_ofNat]
  have e1 : p % 2 ^ 32 = p := Nat.mod_eq_of_lt (by omega)
  have e2 : 2048 % 2 ^ 32 = 2048 := by decide
  rw [e1, e2, Nat.mod_eq_of_lt (a := p * 2048) (by omega), Nat.mod_eq_of_lt (by omega)]
  omega

/-- A word below 2³¹ is not negative read signed, so the wrap of a negative index by the table's height leaves it
    alone, and its signed reading is its value. -/
private theorem wrap_select (v : BitVec 32) (hv : v.toNat < 2 ^ 31) :
    (Scalar.select (IntOp.cmpi .slt v 0#32) (IntOp.addi v 524288#32) v).toInt = (v.toNat : Int) := by
  have hi : v.toInt = (v.toNat : Int) := by
    rw [BitVec.toInt_eq_toNat_cond, if_pos (by omega)]
  have hc : ¬IntOp.cmpi .slt v 0#32 = 1#1 := by
    rw [IntOp.cmpi_slt, hi]
    have z0 : (0#32 : BitVec 32).toInt = 0 := by decide
    rw [z0]
    omega
  have hc' : ¬IntOp.cmpi .slt v 0#32 = 1 := hc
  unfold Scalar.select
  rw [if_neg hc', hi]

/-- The reference's row number at (b, p), read signed, is the row the specification names. -/
private theorem v10_toInt (x0 : (⟨S64x256, .i32⟩ : BufTy).Contents (Elt Ideal)) (hx : TokensInRange x0) (b : Fin 64) (p : Fin 256) :
    (val_main_v10 (F := Ideal) x0 (ix2 b p)).toInt = ((tokRow x0 b p).val : Int) := by
  have e5 : val_main_v5 (F := Ideal) x0 (ix2 b p) = IntOp.addi (x0 (ix2 b p)) (IntOp.muli (BitVec.ofNat 32 p.val) 2048#32) := by
    rw [val_main_v5_apply, val_main_v4_apply, val_main_v3_apply, val_main_v2_apply, val_main_v0_apply, val_main_v1_apply,
      val_main_c_apply]
  have hs := row_sum_toNat (x0 (ix2 b p)) (hx b p) p.val p.isLt
  rw [val_main_v10_apply, val_main_v7_apply, val_main_v9_apply, val_main_v6_apply, val_main_c_0_apply, val_main_v8_apply,
    val_main_c_1_apply, e5, wrap_select _ (by rw [hs]; have := hx b p; have := p.isLt; omega), hs, tokRow_val x0 hx]

/-- The same row number on the start-index array `[64, 256, 1]`. -/
private theorem v11_toInt (x0 : (⟨S64x256, .i32⟩ : BufTy).Contents (Elt Ideal)) (hx : TokensInRange x0) (b : Fin 64) (p : Fin 256) :
    (val_main_v11 (F := Ideal) x0 (ix3 b p 0)).toInt = ((tokRow x0 b p).val : Int) := by
  have ei : idx_main_v11 (ix3 b p (0 : Fin 1)) = ix2 b p :=
    funext fun a => Fin.ext (by match a with | ⟨0, _⟩ => rfl | ⟨1, _⟩ => rfl)
  rw [val_main_v11_apply, ei]
  exact v10_toInt x0 hx b p

/-! ## The stages -/

/-- The gathered rows summed over the positions are the specification's accumulated sum. -/
private theorem embed_eq (x0 : (⟨S64x256, .i32⟩ : BufTy).Contents (Elt Ideal)) (x1 : (⟨S524288x512, .f32⟩ : BufTy).Contents (Elt Ideal))
    (hx : TokensInRange x0) (b : Fin 64) (h : Fin 512) :
    val_main_v13 (F := Ideal) x0 x1 (ix2 b h) = embedSum x0 x1 (ix2 b h) := by
  rw [val_main_v13_apply, val_main_cst_apply, Ideal.ofBits_def, Ideal.ofBits_zero_f32, zero_add]
  unfold embedSum
  refine Finset.sum_congr rfl fun p _ => ?_
  have ei : idx_main_v13 (ix2 b h) p = ix3 b p h :=
    funext fun a => Fin.ext (by match a with | ⟨0, _⟩ => rfl | ⟨1, _⟩ => rfl | ⟨2, _⟩ => rfl)
  rw [ei]
  unfold val_main_v12
  exact RowsGrid.gather_rows_grid_apply _ rfl rfl rfl rfl rfl rfl rfl x1 (val_main_v11 (F := Ideal) x0) b p h (tokRow x0 b p)
    (v11_toInt x0 hx b p)

/-- The first hidden layer: the accumulated sum plus the bias, clamped below at 0. -/
private theorem h1_eq (x0 : (⟨S64x256, .i32⟩ : BufTy).Contents (Elt Ideal)) (x1 : (⟨S524288x512, .f32⟩ : BufTy).Contents (Elt Ideal))
    (x2 : (⟨S512, .f32⟩ : BufTy).Contents (Elt Ideal)) (hx : TokensInRange x0) (b : Fin 64) (h : Fin 512) :
    val_main_v17 (F := Ideal) x0 x1 x2 (ix2 b h) = hidden1 (embedSum x0 x1) x2 b h := by
  have ei : idx_main_v14 (idx_main_v15 (ix2 b h)) = ix1 h :=
    funext fun a => Fin.ext (by match a with | ⟨0, _⟩ => rfl)
  rw [val_main_v17_apply, val_main_v16_apply, val_main_call0_v0_apply, val_main_call0_cst_apply, val_main_v15_apply,
    val_main_v14_apply, ei, embed_eq x0 x1 hx, Ideal.maximumf_def, Ideal.addf_def, Ideal.ofBits_def, Ideal.ofBits_zero_f32]
  rfl

/-- The second hidden layer: the first one times `W2`, summed over the hidden units, plus the bias, clamped at 0. -/
private theorem h2_eq (x0 : (⟨S64x256, .i32⟩ : BufTy).Contents (Elt Ideal)) (x1 : (⟨S524288x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (hx : TokensInRange x0) (b : Fin 64) (j : Fin 512) :
    val_main_v22 (F := Ideal) x0 x1 x2 x3 x4 (ix2 b j) = hidden2 (embedSum x0 x1) x2 x3 x4 b j := by
  have ei : idx_main_v19 (idx_main_v20 (ix2 b j)) = ix1 j :=
    funext fun a => Fin.ext (by match a with | ⟨0, _⟩ => rfl)
  have es : ∑ k : Fin 512, val_main_v17 (F := Ideal) x0 x1 x2 (lidx_main_v18 (ix2 b j) k) * x3 (ridx_main_v18 (ix2 b j) k)
      = ∑ k : Fin 512, hidden1 (embedSum x0 x1) x2 b k * x3 (ix2 k j) := by
    refine Finset.sum_congr rfl fun k _ => ?_
    have el : lidx_main_v18 (ix2 b j) k = ix2 b k :=
      funext fun a => Fin.ext (by match a with | ⟨0, _⟩ => rfl | ⟨1, _⟩ => rfl)
    have er : ridx_main_v18 (ix2 b j) k = ix2 k j :=
      funext fun a => Fin.ext (by match a with | ⟨0, _⟩ => rfl | ⟨1, _⟩ => rfl)
    rw [el, er, h1_eq x0 x1 x2 hx]
  rw [val_main_v22_apply, val_main_v21_apply, val_main_v18_apply, es, val_main_call1_v0_apply, val_main_call1_cst_apply,
    val_main_v20_apply, val_main_v19_apply, ei, Ideal.maximumf_def, Ideal.addf_def, Ideal.ofBits_def, Ideal.ofBits_zero_f32]
  rfl

/-- The reference's last stage, at `Ideal`, is the specification, for tokens in range. -/
theorem ref_is_spec (x0 : (⟨S64x256, .i32⟩ : BufTy).Contents (Elt Ideal)) (x1 : (⟨S524288x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S512x256, .f32⟩ : BufTy).Contents (Elt Ideal))
    (x6 : (⟨S256, .f32⟩ : BufTy).Contents (Elt Ideal)) (hx : TokensInRange x0) :
    val_main_v26 (F := Ideal) x0 x1 x2 x3 x4 x5 x6 = mlpOut x0 x1 x2 x3 x4 x5 x6 := by
  funext i
  obtain ⟨b, s, rfl⟩ : ∃ (b : Fin 64) (s : Fin 256), i = ix2 b s := ⟨i 0, i 1, eq_ix2 i⟩
  have ei : idx_main_v24 (idx_main_v25 (ix2 b s)) = ix1 s :=
    funext fun a => Fin.ext (by match a with | ⟨0, _⟩ => rfl)
  have es : ∑ k : Fin 512, val_main_v22 (F := Ideal) x0 x1 x2 x3 x4 (lidx_main_v23 (ix2 b s) k) * x5 (ridx_main_v23 (ix2 b s) k)
      = ∑ k : Fin 512, hidden2 (embedSum x0 x1) x2 x3 x4 b k * x5 (ix2 k s) := by
    refine Finset.sum_congr rfl fun k _ => ?_
    have el : lidx_main_v23 (ix2 b s) k = ix2 b k :=
      funext fun a => Fin.ext (by match a with | ⟨0, _⟩ => rfl | ⟨1, _⟩ => rfl)
    have er : ridx_main_v23 (ix2 b s) k = ix2 k s :=
      funext fun a => Fin.ext (by match a with | ⟨0, _⟩ => rfl | ⟨1, _⟩ => rfl)
    rw [el, er, h2_eq x0 x1 x2 x3 x4 hx]
  -- the last layer: the second hidden layer times `W3`, summed over the hidden units, plus the bias
  rw [val_main_v26_apply, val_main_v23_apply, es, val_main_v25_apply, val_main_v24_apply, ei, Ideal.addf_def]
  rfl

end Cert.EmbedMlp

end
-- ==== Proof.KernelPieces.lean ====
/-
  What one grid point's body leaves behind, as values.

  Every grid point adds, into the accumulator it finds, the four position slices of its blocks: each slice's
  tokens compared with the token numbers 0 … 2047 (a 0/1 matrix) times that slice's 2048 table rows. The first
  point stores a zero accumulator first and adds into that; the last point also stores the three layers of the
  finished accumulator into the output block. `pointAcc` names the accumulator a point leaves and `mlpOfAcc` the
  layers; the four lemmas say that each case of the body leaves exactly those.
-/
import proofs.«409042_j76373108457716_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The accumulator a grid point leaves: what it found, `acc`, plus the four position slices of the point's token
    block `x0` and table block `x1`, each slice's 0/1 token matrix times its table rows. -/
def pointAcc (x0 : Vec F S4x64x1 .i32) (x1 : Vec F S4x2048x512 .f32) (acc : Vec F S64x512 .f32) : Vec F S64x512 .f32 :=
  k0_pay1 (iota Kind.tc S1x2048 32 [1] iota_S1x2048_d1_w32)
    (k0_pay4 (View.ld x0 (Rect.unit ![0, 0, 0] ![1, 64, 1] Facts₀.inb_S4x64x1_S1x64x1_0_0_0))
      (View.ld x1 (Rect.unit ![0, 0, 0] ![1, 2048, 512] Facts₀.inb_S4x2048x512_S1x2048x512_0_0_0))
      (View.ld x0 (Rect.unit ![1, 0, 0] ![1, 64, 1] Facts₀.inb_S4x64x1_S1x64x1_1_0_0))
      (View.ld x1 (Rect.unit ![1, 0, 0] ![1, 2048, 512] Facts₀.inb_S4x2048x512_S1x2048x512_1_0_0)))
    (k0_pay5 (View.ld x0 (Rect.unit ![2, 0, 0] ![1, 64, 1] Facts₀.inb_S4x64x1_S1x64x1_2_0_0)))
    (View.ld x1 (Rect.unit ![2, 0, 0] ![1, 2048, 512] Facts₀.inb_S4x2048x512_S1x2048x512_2_0_0))
    (View.ld x0 (Rect.unit ![3, 0, 0] ![1, 64, 1] Facts₀.inb_S4x64x1_S1x64x1_3_0_0))
    (View.ld x1 (Rect.unit ![3, 0, 0] ![1, 2048, 512] Facts₀.inb_S4x2048x512_S1x2048x512_3_0_0)) acc

/-- The zero accumulator the first point stores. -/
abbrev zeroAcc : Vec F S64x512 .f32 := k0_pay3

/-- The three layers of an accumulator, as the last point stores them into the output block. -/
abbrev mlpOfAcc (acc : Vec F S64x512 .f32) (x2 : Vec F S1x512 .f32) (x3 : Vec F S512x512 .f32) (x4 : Vec F S1x512 .f32)
    (x5 : Vec F S512x256 .f32) (x6 : Vec F S1x256 .f32) : Vec F S64x256 .f32 :=
  k0_pay2 acc x2 x3 x4 x5 x6

/-- The first point: the zero accumulator, stored and read back, plus the point's slices. -/
theorem sout_A (c : Dev nD) (i : grid0.Coords) (arg1 : Memref sig .tc .vmem S4x64x1 .i32) (harg1 : arg1.IsWhole) (arg2 : Memref sig .tc .vmem S4x2048x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S64x256 .f32) (harg8 : arg8.IsWhole) (arg9 : Memref sig .tc .vmem S64x512 .f32) (harg9 : arg9.IsWhole) (hc0 : cond0_0 i) (hc1 : ¬cond0_1 i) (x0 : Vec F S4x64x1 .i32) (x1 : Vec F S4x2048x512 .f32) (x2 : Vec F S1x512 .f32) (x3 : Vec F S512x512 .f32) (x4 : Vec F S1x512 .f32) (x5 : Vec F S512x256 .f32) (x6 : Vec F S1x256 .f32) :
    sout0_A_0 c i arg1 harg1 arg2 harg2 arg3 harg3 arg4 harg4 arg5 harg5 arg6 harg6 arg7 harg7 arg8 harg8 arg9 harg9 hc0 hc1 x0 x1 x2 x3 x4 x5 x6 = pointAcc x0 x1 zeroAcc := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_cons_unit_zero (S := S64x512) hz, View.readCov_unit_zero (S := S64x512) _ hz]
  simp only [View.readAt_eq_ld, harg1.read_unread, harg2.read_unread, harg9.read_unread, View.ld_unit_zero (S := S64x512) hz,
    View.readCov_unit_zero (S := S64x512) _ hz] <;> rfl

/-- A middle point: the accumulator the point before left, plus the point's slices. -/
theorem sout_B (c : Dev nD) (i : grid0.Coords) (arg1 : Memref sig .tc .vmem S4x64x1 .i32) (harg1 : arg1.IsWhole) (arg2 : Memref sig .tc .vmem S4x2048x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S64x256 .f32) (harg8 : arg8.IsWhole) (arg9 : Memref sig .tc .vmem S64x512 .f32) (harg9 : arg9.IsWhole) (hc0 : ¬cond0_0 i) (hc1 : ¬cond0_1 i) (x0 : Vec F S4x64x1 .i32) (x1 : Vec F S4x2048x512 .f32) (x2 : Vec F S1x512 .f32) (x3 : Vec F S512x512 .f32) (x4 : Vec F S1x512 .f32) (x5 : Vec F S512x256 .f32) (x6 : Vec F S1x256 .f32) (xs0 : Vec F S64x512 .f32) :
    sout0_B_0 c i arg1 harg1 arg2 harg2 arg3 harg3 arg4 harg4 arg5 harg5 arg6 harg6 arg7 harg7 arg8 harg8 arg9 harg9 hc0 hc1 x0 x1 x2 x3 x4 x5 x6 xs0 = pointAcc x0 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 x6 xs0)]
  unfold kernelRun0_B
  dsimp only
  sl_unfold_words
  rw [View.canon_unit_zero hz]
  simp only [View.readAt_eq_ld, harg1.read_unread, harg2.read_unread, harg9.read_unread, View.ld_unit_zero (S := S64x512) hz] <;> rfl

/-- The last point's accumulator: as at a middle point. -/
theorem sout_C (c : Dev nD) (i : grid0.Coords) (arg1 : Memref sig .tc .vmem S4x64x1 .i32) (harg1 : arg1.IsWhole) (arg2 : Memref sig .tc .vmem S4x2048x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S64x256 .f32) (harg8 : arg8.IsWhole) (arg9 : Memref sig .tc .vmem S64x512 .f32) (harg9 : arg9.IsWhole) (hc0 : ¬cond0_0 i) (hc1 : cond0_1 i) (x0 : Vec F S4x64x1 .i32) (x1 : Vec F S4x2048x512 .f32) (x2 : Vec F S1x512 .f32) (x3 : Vec F S512x512 .f32) (x4 : Vec F S1x512 .f32) (x5 : Vec F S512x256 .f32) (x6 : Vec F S1x256 .f32) (xs0 : Vec F S64x512 .f32) :
    sout0_C_0 c i arg1 harg1 arg2 harg2 arg3 harg3 arg4 harg4 arg5 harg5 arg6 harg6 arg7 harg7 arg8 harg8 arg9 harg9 hc0 hc1 x0 x1 x2 x3 x4 x5 x6 xs0 = pointAcc x0 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero hz]
  simp only [View.readAt_eq_ld, harg1.read_unread, harg2.read_unread, harg9.read_unread, View.ld_unit_zero (S := S64x512) hz] <;> rfl

/-- The last point's output block: the three layers of the accumulator it has just finished. -/
theorem out_C (c : Dev nD) (i : grid0.Coords) (arg1 : Memref sig .tc .vmem S4x64x1 .i32) (harg1 : arg1.IsWhole) (arg2 : Memref sig .tc .vmem S4x2048x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S64x256 .f32) (harg8 : arg8.IsWhole) (arg9 : Memref sig .tc .vmem S64x512 .f32) (harg9 : arg9.IsWhole) (hc0 : ¬cond0_0 i) (hc1 : cond0_1 i) (x0 : Vec F S4x64x1 .i32) (x1 : Vec F S4x2048x512 .f32) (x2 : Vec F S1x512 .f32) (x3 : Vec F S512x512 .f32) (x4 : Vec F S1x512 .f32) (x5 : Vec F S512x256 .f32) (x6 : Vec F S1x256 .f32) (xs0 : Vec F S64x512 .f32) :
    out0_C_7 c i arg1 harg1 arg2 harg2 arg3 harg3 arg4 harg4 arg5 harg5 arg6 harg6 arg7 harg7 arg8 harg8 arg9 harg9 hc0 hc1 x0 x1 x2 x3 x4 x5 x6 xs0 = mlpOfAcc (pointAcc x0 x1 xs0) x2 x3 x4 x5 x6 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero hz]
  simp only [View.readAt_eq_ld, harg1.read_unread, harg2.read_unread, harg3.read_unread, harg4.read_unread, harg5.read_unread,
    harg6.read_unread, harg7.read_unread, harg9.read_unread, View.ld_unit_zero (S := S64x512) hz, View.ld_unit_zero (S := S1x512) hz,
    View.ld_unit_zero (S := S512x512) hz, View.ld_unit_zero (S := S512x256) hz, View.ld_unit_zero (S := S1x256) hz,
    View.readCov_unit_zero (S := S64x512) _ hz] <;> rfl

end Cert.KernelIdeal.Pieces

end
-- ==== Proof.LibMatmulPlain.lean ====
/-
  A plain matrix product into a zero accumulator, read at an index.

  A `tpu.matmul` of an `[M, K]` by a `[K, N]` operand with dimension numbers
  `<[1], [0], [0], [1], …, [], []>` (rows × contraction times contraction × columns, no batch axis) whose
  accumulator is the zero constant reads, at `(i, j)` and at the ideal values, the sum over `k : Fin K` of the left
  operand at `(i, k)` times the right at `(k, j)`. The statement takes an arbitrary dimension-number record
  with equations naming its fields, so it applies to any record whose fields are those lists by `rfl`.
-/
import Idealize.ShloMosaic.PureOps.Ideal.Laws
import Idealize.ShloMosaic.Lib.ValueIdx

noncomputable section

namespace Idealize.ShloMosaic.MatmulPlain

open Idealize.ShloMosaic Idealize.ShloMosaic.ValueIdx

variable {M K N : Nat}

/-- The plain record over an arbitrary proof of its conditions. -/
private abbrev rec (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

private theorem lhs_0 (wf : DotDims.WF ⟨2, ![M, K]⟩ ⟨2, ![K, N]⟩ ⟨2, ![M, N]⟩ [1] [0] [0] [1] [] [])
    (i : (⟨2, ![M, N]⟩ : Shape).Idx) (q : (rec (M := M) (K := K) (N := N) wf).contr.Idx) :
    ((rec wf).lhsIdx i q 0).val = (i 0).val := by
  unfold DotDims.lhsIdx
  rw [dif_neg (show ¬(0 : Fin 2) ∈ (rec (M := M) (K := K) (N := N) wf).lhsBatch from List.not_mem_nil),
    dif_pos (show (0 : Fin 2) ∈ (rec (M := M) (K := K) (N := N) wf).lhsNonContracting from List.mem_singleton.mpr rfl)]
  rfl

private theorem lhs_1 (wf : DotDims.WF ⟨2, ![M, K]⟩ ⟨2, ![K, N]⟩ ⟨2, ![M, N]⟩ [1] [0] [0] [1] [] [])
    (i : (⟨2, ![M, N]⟩ : Shape).Idx) (q : (rec (M := M) (K := K) (N := N) wf).contr.Idx) :
    ((rec wf).lhsIdx i q 1).val = (q ⟨0, Nat.one_pos⟩).val :=
  (rec wf).lhsIdx_val_of_single rfl i q

private theorem rhs_0 (wf : DotDims.WF ⟨2, ![M, K]⟩ ⟨2, ![K, N]⟩ ⟨2, ![M, N]⟩ [1] [0] [0] [1] [] [])
    (i : (⟨2, ![M, N]⟩ : Shape).Idx) (q : (rec (M := M) (K := K) (N := N) wf).contr.Idx) :
    ((rec wf).rhsIdx i q 0).val = (q ⟨0, Nat.one_pos⟩).val :=
  (rec wf).rhsIdx_val_of_single rfl i q

private theorem rhs_1 (wf : DotDims.WF ⟨2, ![M, K]⟩ ⟨2, ![K, N]⟩ ⟨2, ![M, N]⟩ [1] [0] [0] [1] [] [])
    (i : (⟨2, ![M, N]⟩ : Shape).Idx) (q : (rec (M := M) (K := K) (N := N) wf).contr.Idx) :
    ((rec wf).rhsIdx i q 1).val = (i 1).val := by
  unfold DotDims.rhsIdx
  rw [dif_neg (show ¬(1 : Fin 2) ∈ (rec (M := M) (K := K) (N := N) wf).rhsBatch from List.not_mem_nil),
    dif_pos (show (1 : Fin 2) ∈ (rec (M := M) (K := K) (N := N) wf).rhsNonContracting from List.mem_singleton.mpr rfl)]
  rfl

/-- A plain `[M, K] × [K, N]` product into the zero accumulator READ AT (i, j): `Σ k, lhs (i, k) · rhs (k, j)`. -/
theorem matmul_plain_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂) (i : Fin M) (j : Fin N) :
    FloatOps.matmul d prec lhs rhs (constant ⟨2, ![M, N]⟩ .f32 0x00000000#32) (ix2 i j)
      = ∑ k : Fin K, lhs (ix2 i k) * rhs (ix2 k j) := by
  obtain ⟨lc, rc, ln, rn, lb, rb, wf⟩ := d
  dsimp only at hlc hrc hln hrn hlb hrb
  subst hlc hrc hln hrn hlb hrb
  rw [Ideal.matmul_constant_zero_apply, ← Equiv.sum_comp (contrEquiv1 (rec wf) K rfl rfl).symm]
  refine Finset.sum_congr rfl fun k _ => ?_
  have hk := contrEquiv1_symm_val (rec wf) K rfl rfl k
  have el : (rec wf).lhsIdx (ix2 i j) ((contrEquiv1 (rec wf) K rfl rfl).symm k) = ix2 i k := funext fun a => Fin.ext (by
    match a with
    | ⟨0, _⟩ => exact lhs_0 wf _ _
    | ⟨1, _⟩ => exact (lhs_1 wf _ _).trans hk)
  have er : (rec wf).rhsIdx (ix2 i j) ((contrEquiv1 (rec wf) K rfl rfl).symm k) = ix2 k j := funext fun a => Fin.ext (by
    match a with
    | ⟨0, _⟩ => exact (rhs_0 wf _ _).trans hk
    | ⟨1, _⟩ => exact rhs_1 wf _ _)
  rw [el, er]

end Idealize.ShloMosaic.MatmulPlain

end
-- ==== Proof.KernelPoint.lean ====
/-
  One grid point's addition to the accumulator, read at an index over the extended reals.

  A slice's tokens compared with the token numbers give, at (b, k), 1 if the token of batch row b IS k and 0
  otherwise (`oneHot`); the matrix product with the slice's 2048 table rows is then, at (b, h), the sum over k of
  that 0/1 weight times the table's entry (k, h). A point adds its four slices, first slice first, to what it found.
-/
import proofs.«409042_j76373108457716_1_alg».proof.Proof.KernelPieces
import proofs.«409042_j76373108457716_1_alg».proof.Proof.LibMatmulPlain
import Idealize.ShloMosaic.Lib.ValueLayout
import Idealize.ShloMosaic.Lib.StableHlo.Predicate

noncomputable section

namespace Cert.KernelIdeal.Point

open Cert.KernelIdeal Cert.KernelIdeal.Gen Cert.KernelIdeal.Pieces
open Idealize.ShloMosaic Idealize.ShloMosaic.ValueIdx Idealize.ShloMosaic.MatmulPlain

/-- The weight of token number `k` for a token word `w`: 1 if `w` is `k`, else 0. -/
def oneHot (w : BitVec 32) (k : Fin 2048) : EReal := if w.toNat = k.val then 1 else 0

/-- The compare-and-convert of one word: `sitofp (extui (w == k))` is the weight. -/
theorem oneHot_word (w : BitVec 32) (k : Fin 2048) :
    (((((IntOp.cmpi .eq w (BitVec.ofNat 32 k.val)).setWidth 32).toInt : ℝ)) : EReal) = oneHot w k := by
  unfold oneHot
  have hk : k.val < 2 ^ 32 := by have := k.isLt; omega
  by_cases h : w.toNat = k.val
  · have e : w = BitVec.ofNat 32 k.val := BitVec.eq_of_toNat_eq (by rw [BitVec.toNat_ofNat, Nat.mod_eq_of_lt hk]; exact h)
    rw [if_pos h, (StableHlo.Predicate.cmpi_eq_iff).2 e]
    have : ((1#1 : BitVec 1).setWidth 32).toInt = 1 := by decide
    rw [this]; simp
  · have ne : ¬w = BitVec.ofNat 32 k.val := fun e => h (by rw [e, BitVec.toNat_ofNat, Nat.mod_eq_of_lt hk])
    have hc : IntOp.cmpi .eq w (BitVec.ofNat 32 k.val) = 0#1 :=
      eq_zero_of_ne_one fun e => ne ((StableHlo.Predicate.cmpi_eq_iff).1 e)
    rw [if_neg h, hc]
    have : ((0#1 : BitVec 1).setWidth 32).toInt = 0 := by decide
    rw [this]; simp

/-- A slice's 0/1 matrix at (b, k): the weight of `k` for the token of batch row `b`. -/
theorem tokenMatrix_apply (tok : Vec Ideal S1x64x1 .i32) (b : Fin 64) (k : Fin 2048) :
    (truncf .bf16 (sitofp .f32 (extui 32 (cmpi .eq
        (broadcastTo S64x2048 (shapeCast S64x1 tok Facts₀.shapeCasts_S1x64x1_S64x1) Facts₀.broadcasts_S64x1_S64x2048)
        (broadcastTo S64x2048 (iota Kind.tc S1x2048 32 [1] Facts₀.iota_S1x2048_d1_w32) Facts₀.broadcasts_S1x2048_S64x2048))
        Facts₀.natLt_1_32)) Facts₀.bitsLt_bf16_f32 : FVec Ideal S64x2048 .bf16) (ix2 b k)
      = oneHot (tok (ix3 (0 : Fin 1) b (0 : Fin 1))) k := by
  have e1 : broadcastTo S64x2048 (shapeCast S64x1 tok Facts₀.shapeCasts_S1x64x1_S64x1) Facts₀.broadcasts_S64x1_S64x2048 (ix2 b k)
      = tok (ix3 (0 : Fin 1) b (0 : Fin 1)) := by
    rw [broadcastTo_apply _ Facts₀.broadcasts_S64x1_S64x2048 (ix2 b k) (ix2 b (0 : Fin 1)) (fun a => match a with
      | ⟨0, _⟩ => by show b.val = if (64 : Nat) = 1 then 0 else b.val; rw [if_neg (by decide)]
      | ⟨1, _⟩ => by show 0 = if (1 : Nat) = 1 then 0 else k.val; rw [if_pos rfl])]
    exact shapeCast_1ab_ab_apply tok Facts₀.shapeCasts_S1x64x1_S64x1 b (0 : Fin 1)
  have e2 : broadcastTo S64x2048 (iota Kind.tc S1x2048 32 [1] Facts₀.iota_S1x2048_d1_w32) Facts₀.broadcasts_S1x2048_S64x2048 (ix2 b k)
      = BitVec.ofNat 32 k.val := by
    rw [broadcastTo_apply _ Facts₀.broadcasts_S1x2048_S64x2048 (ix2 b k) (ix2 (0 : Fin 1) k) (fun a => match a with
      | ⟨0, _⟩ => by show 0 = if (1 : Nat) = 1 then 0 else b.val; rw [if_pos rfl]
      | ⟨1, _⟩ => by show k.val = if (2048 : Nat) = 1 then 0 else k.val; rw [if_neg (by decide)])]
    exact iota_single_apply Kind.tc S1x2048 32 1 Facts₀.iota_S1x2048_d1_w32 (ix2 (0 : Fin 1) k)
  show ((((IntOp.cmpi .eq
      (broadcastTo S64x2048 (shapeCast S64x1 tok Facts₀.shapeCasts_S1x64x1_S64x1) Facts₀.broadcasts_S64x1_S64x2048 (ix2 b k))
      (broadcastTo S64x2048 (iota Kind.tc S1x2048 32 [1] Facts₀.iota_S1x2048_d1_w32) Facts₀.broadcasts_S1x2048_S64x2048 (ix2 b k))).setWidth 32).toInt : ℝ) : EReal) = _
  rw [e1, e2]
  exact oneHot_word _ k

/-- A slice's table rows, cast to a matrix, at (k, h). -/
theorem slab_apply (slab : Vec Ideal S1x2048x512 .f32) (k : Fin 2048) (h : Fin 512) :
    (truncf .bf16 (shapeCast S2048x512 slab Facts₀.shapeCasts_S1x2048x512_S2048x512) Facts₀.bitsLt_bf16_f32 : FVec Ideal S2048x512 .bf16) (ix2 k h)
      = slab (ix3 (0 : Fin 1) k h) :=
  shapeCast_1ab_ab_apply slab Facts₀.shapeCasts_S1x2048x512_S2048x512 k h

/-- One slice's product at (b, h): the 0/1-weighted sum of the slice's table entries (k, h). -/
def sliceSum (tok : Vec Ideal S1x64x1 .i32) (slab : Vec Ideal S1x2048x512 .f32) (b : Fin 64) (h : Fin 512) : EReal :=
  ∑ k : Fin 2048, oneHot (tok (ix3 (0 : Fin 1) b (0 : Fin 1))) k * slab (ix3 (0 : Fin 1) k h)

theorem sliceMatmul_apply (tok : Vec Ideal S1x64x1 .i32) (slab : Vec Ideal S1x2048x512 .f32) (b : Fin 64) (h : Fin 512) :
    matmul dot_S64x2048_S2048x512_S64x512_1_0_0_1_n_n none
      (truncf .bf16 (sitofp .f32 (extui 32 (cmpi .eq
        (broadcastTo S64x2048 (shapeCast S64x1 tok Facts₀.shapeCasts_S1x64x1_S64x1) Facts₀.broadcasts_S64x1_S64x2048)
        (broadcastTo S64x2048 (iota Kind.tc S1x2048 32 [1] Facts₀.iota_S1x2048_d1_w32) Facts₀.broadcasts_S1x2048_S64x2048))
        Facts₀.natLt_1_32)) Facts₀.bitsLt_bf16_f32 : FVec Ideal S64x2048 .bf16)
      (truncf .bf16 (shapeCast S2048x512 slab Facts₀.shapeCasts_S1x2048x512_S2048x512) Facts₀.bitsLt_bf16_f32 : FVec Ideal S2048x512 .bf16)
      (constant S64x512 .f32 0x00000000#32) (ix2 b h) = sliceSum tok slab b h := by
  unfold sliceSum
  simp only [matmul]
  rw [matmul_plain_zero_apply dot_S64x2048_S2048x512_S64x512_1_0_0_1_n_n rfl rfl rfl rfl rfl rfl]
  refine Finset.sum_congr rfl fun k _ => ?_
  rw [tokenMatrix_apply, slab_apply]

/-- Position slice `q` of a token block, at (0, b, 0): the block at (q, b, 0). -/
theorem tokSlice_apply (x0 : Vec Ideal S4x64x1 .i32) (q : Fin 4) (off : Fin 3 → Nat) (hoff : off = ![q.val, 0, 0])
    (inb : ∀ a, off a + (![1, 64, 1] : Fin 3 → Nat) a ≤ S4x64x1.size a) (b : Fin 64) :
    View.ld x0 (Rect.unit (s := S4x64x1) off ![1, 64, 1] inb) (ix3 (0 : Fin 1) b (0 : Fin 1)) = x0 (ix3 q b (0 : Fin 1)) := by
  subst hoff
  exact congrArg x0 (funext fun a => Fin.ext (by
    match a with
    | ⟨0, _⟩ => show q.val + 1 * 0 = q.val; omega
    | ⟨1, _⟩ => show 0 + 1 * b.val = b.val; omega
    | ⟨2, _⟩ => show 0 + 1 * 0 = 0; rfl))

/-- Position slice `q` of a table block, at (0, k, h): the block at (q, k, h). -/
theorem tabSlice_apply (x1 : Vec Ideal S4x2048x512 .f32) (q : Fin 4) (off : Fin 3 → Nat) (hoff : off = ![q.val, 0, 0])
    (inb : ∀ a, off a + (![1, 2048, 512] : Fin 3 → Nat) a ≤ S4x2048x512.size a) (k : Fin 2048) (h : Fin 512) :
    View.ld x1 (Rect.unit (s := S4x2048x512) off ![1, 2048, 512] inb) (ix3 (0 : Fin 1) k h) = x1 (ix3 q k h) := by
  subst hoff
  exact congrArg x1 (funext fun a => Fin.ext (by
    match a with
    | ⟨0, _⟩ => show q.val + 1 * 0 = q.val; omega
    | ⟨1, _⟩ => show 0 + 1 * k.val = k.val; omega
    | ⟨2, _⟩ => show 0 + 1 * h.val = h.val; omega))

/-- What a point adds at an index: over its four position slices, the 0/1-weighted sum of the slice's table entries. -/
def pointSum (x0 : Vec Ideal S4x64x1 .i32) (x1 : Vec Ideal S4x2048x512 .f32) : S64x512.Idx → EReal :=
  fun i => ∑ q : Fin 4, ∑ k : Fin 2048, oneHot (x0 (ix3 q (i 0) (0 : Fin 1))) k * x1 (ix3 q k (i 1))

/-- A slice's sum over the block's slice `q` is the `q`-th term of the point's sum. -/
theorem sliceSum_slice (x0 : Vec Ideal S4x64x1 .i32) (x1 : Vec Ideal S4x2048x512 .f32) (q : Fin 4)
    (off : Fin 3 → Nat) (hoff : off = ![q.val, 0, 0])
    (inb0 : ∀ a, off a + (![1, 64, 1] : Fin 3 → Nat) a ≤ S4x64x1.size a)
    (inb1 : ∀ a, off a + (![1, 2048, 512] : Fin 3 → Nat) a ≤ S4x2048x512.size a) (b : Fin 64) (h : Fin 512) :
    sliceSum (View.ld x0 (Rect.unit (s := S4x64x1) off ![1, 64, 1] inb0))
        (View.ld x1 (Rect.unit (s := S4x2048x512) off ![1, 2048, 512] inb1)) b h
      = ∑ k : Fin 2048, oneHot (x0 (ix3 q b (0 : Fin 1))) k * x1 (ix3 q k h) := by
  unfold sliceSum
  rw [tokSlice_apply x0 q off hoff inb0 b]
  exact Finset.sum_congr rfl fun k _ => by rw [tabSlice_apply x1 q off hoff inb1 k h]

/-- THE POINT'S UPDATE AT AN INDEX: what it found plus its four slices (the slices added first to last onto zero). -/
theorem pointAcc_apply (x0 : Vec Ideal S4x64x1 .i32) (x1 : Vec Ideal S4x2048x512 .f32) (acc : Vec Ideal S64x512 .f32)
    (b : Fin 64) (h : Fin 512) : pointAcc x0 x1 acc (ix2 b h) = acc (ix2 b h) + pointSum x0 x1 (ix2 b h) := by
  unfold pointAcc k0_pay1 k0_pay4 k0_pay5
  dsimp only
  rw [shapeCast_self]
  show acc (ix2 b h) + ((((_ + _) + _) + _) + _) = _
  rw [sliceMatmul_apply, sliceMatmul_apply, sliceMatmul_apply, sliceMatmul_apply]
  rw [sliceSum_slice x0 x1 0 ![0, 0, 0] rfl, sliceSum_slice x0 x1 1 ![1, 0, 0] rfl, sliceSum_slice x0 x1 2 ![2, 0, 0] rfl,
    sliceSum_slice x0 x1 3 ![3, 0, 0] rfl]
  show acc (ix2 b h) + ((((Ideal.ofBits .f32 0x00000000#32 + _) + _) + _) + _) = acc (ix2 b h) + ∑ q : Fin 4, _
  rw [Ideal.ofBits_zero_f32, zero_add, Fin.sum_univ_four]

/-- The zero accumulator is zero everywhere. -/
theorem zeroAcc_apply (i : S64x512.Idx) : (zeroAcc (F := Ideal)) i = 0 := by
  unfold zeroAcc k0_pay3
  rw [shapeCast_self]
  show Ideal.ofBits .f32 0x00000000#32 = 0
  exact Ideal.ofBits_zero_f32

end Cert.KernelIdeal.Point

end
-- ==== Proof.KernelBlocks.lean ====
/-
  The blocks the windows hand the body, read off the argument arrays.

  Before the call the tokens are transposed to `[256, 64]` and given a unit last axis, the table is viewed as
  `[256, 2048, 512]` (position, token, hidden unit) and the three biases as one-row matrices. At grid point `t`
  the token window and the table window hold positions `4t … 4t + 3`; the other five windows hold their whole
  arrays at every point. So the token block at (q, b, 0) is `x[b, 4t + q]`, the table block at (q, k, h) is
  `W1[(4t + q) · 2048 + k, h]`, and a bias block at (0, h) is the bias at `h`.
-/
import proofs.«409042_j76373108457716_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The index maps, decided over the grid -/

/-- The printed index maps at every grid point: the token and the table windows are at block `t` of their first axis
    and block 0 of the others; the other five input windows are at block 0 of both axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The arrays the host operations wrote, as terms of the arguments -/

/-- The token window's array: the tokens transposed, with a unit last axis. -/
theorem V_tokens (c : Dev nD) : (V m c main_v1 : S256x64x1.Idx → Elt F .i32)
    = broadcastInDim S256x64x1 ![0, 1] bcast_S256x64_S256x64x1_0_1
        (transpose S256x64 [1, 0] (m ((c : Thread nD τ).loc main_arg0)) transposes_S64x256_S256x64_1_0) := by
  dsimp only [V, hostOps0]
  after_results

/-- The table window's array: the table viewed as (position, token, hidden unit). -/
theorem V_table (c : Dev nD) : (V m c main_v2 : S256x2048x512.Idx → Elt F .f32)
    = shapeCast S256x2048x512 (m ((c : Thread nD τ).loc main_arg1)) shapeCasts_S524288x512_S256x2048x512 := by
  dsimp only [V, hostOps0]
  after_results
  rfl

/-- The first bias as a one-row matrix. -/
theorem V_bias1 (c : Dev nD) : (V m c main_v3 : S1x512.Idx → Elt F .f32)
    = shapeCast S1x512 (m ((c : Thread nD τ).loc main_arg2)) shapeCasts_S512_S1x512 := by
  dsimp only [V, hostOps0]
  after_results
  rfl

/-- The second bias as a one-row matrix. -/
theorem V_bias2 (c : Dev nD) : (V m c main_v4 : S1x512.Idx → Elt F .f32)
    = shapeCast S1x512 (m ((c : Thread nD τ).loc main_arg4)) shapeCasts_S512_S1x512 := by
  dsimp only [V, hostOps0]
  after_results
  rfl

/-- The third bias as a one-row matrix. -/
theorem V_bias3 (c : Dev nD) : (V m c main_v5 : S1x256.Idx → Elt F .f32)
    = shapeCast S1x256 (m ((c : Thread nD τ).loc main_arg6)) shapeCasts_S256_S1x256 := by
  dsimp only [V, hostOps0]
  after_results
  rfl

/-! ## Those terms at an index -/

section AtIndex
variable {α : Type}

/-- The transposed tokens with a unit last axis, at (p, b, 0): the token at (b, p). -/
theorem tokens_at (x : S64x256.Idx → α) (p : Fin 256) (b : Fin 64) (z : Fin 1) :
    broadcastInDim S256x64x1 ![0, 1] bcast_S256x64_S256x64x1_0_1
      (transpose S256x64 [1, 0] x transposes_S64x256_S256x64_1_0) (ix3 p b z) = x (ix2 b p) := by
  rw [broadcastInDim_apply _ bcast_S256x64_S256x64x1_0_1 _ (ix3 p b z) (ix2 p b) (fun a => match a with
    | ⟨0, _⟩ => by show p.val = if (256 : Nat) = 1 then 0 else p.val; rw [if_neg (by decide)]
    | ⟨1, _⟩ => by show b.val = if (64 : Nat) = 1 then 0 else b.val; rw [if_neg (by decide)])]
  exact transpose_ix2_apply x _ p b

/-- The table viewed as (position, token, hidden unit), at (p, k, h): row `p · 2048 + k` at `h` — the two have
    the same row-major position. -/
theorem table_at (x : S524288x512.Idx → α) (p : Fin 256) (k : Fin 2048) (h : Fin 512) (hr : p.val * 2048 + k.val < 524288) :
    shapeCast S256x2048x512 x shapeCasts_S524288x512_S256x2048x512 (ix3 p k h) = x (ix2 ⟨p.val * 2048 + k.val, hr⟩ h) := by
  refine shapeCast_apply x _ (ix3 p k h) (ix2 ⟨p.val * 2048 + k.val, hr⟩ h) ?_
  rw [Shape.rowMajor_val_two, Shape.rowMajor_val_three]
  rfl

end AtIndex

/-! ## The blocks -/

/-- The token block of point `t` at (q, b, 0): the token of batch row `b` at position `4t + q`. -/
theorem tokBlock_apply (c : Dev nD) (t : Fin cfg0.N) (q : Fin 4) (b : Fin 64) (z : Fin 1) (hp : 4 * t.val + q.val < 256) :
    (iblk m c 0 t : Vec F S4x64x1 .i32) (ix3 q b z) = m ((c : Thread nD τ).loc main_arg0) (ix2 b ⟨4 * t.val + q.val, hp⟩) := by
  obtain ⟨e0, e1, e2, -⟩ := idx_facts t
  -- the block's element (q, b, 0) lies at (4t + q, b, 0) of the array
  have hi : ((cfg0.win 0).blk t).view.emb (ix3 q b z) = (ix3 ⟨4 * t.val + q.val, hp⟩ b z : S256x64x1.Idx) := by
    funext a; apply Fin.ext
    match a with
    | ⟨0, _⟩ => show win0_0.index t (0 : Fin 3) * 4 + 1 * q.val = 4 * t.val + q.val; omega
    | ⟨1, _⟩ => show win0_0.index t (1 : Fin 3) * 64 + 1 * b.val = b.val; omega
    | ⟨2, _⟩ => show win0_0.index t (2 : Fin 3) * 1 + 1 * z.val = z.val; omega
  show V m c main_v1 (((cfg0.win 0).blk t).view.emb (ix3 q b z)) = _
  rw [hi, V_tokens, tokens_at]

/-- The table block of point `t` at (q, k, h): row `(4t + q) · 2048 + k` of the table, at `h`. -/
theorem tableBlock_apply (c : Dev nD) (t : Fin cfg0.N) (q : Fin 4) (k : Fin 2048) (h : Fin 512)
    (hr : (4 * t.val + q.val) * 2048 + k.val < 524288) :
    (iblk m c 1 t : Vec F S4x2048x512 .f32) (ix3 q k h)
      = m ((c : Thread nD τ).loc main_arg1) (ix2 ⟨(4 * t.val + q.val) * 2048 + k.val, hr⟩ h) := by
  obtain ⟨-, -, -, e0, e1, e2, -⟩ := idx_facts t
  have hq := q.isLt
  have hp : 4 * t.val + q.val < 256 := by omega
  -- the block's element (q, k, h) lies at (4t + q, k, h) of the array
  have hi : ((cfg0.win 1).blk t).view.emb (ix3 q k h) = (ix3 ⟨4 * t.val + q.val, hp⟩ k h : S256x2048x512.Idx) := by
    funext a; apply Fin.ext
    match a with
    | ⟨0, _⟩ => show win0_1.index t (0 : Fin 3) * 4 + 1 * q.val = 4 * t.val + q.val; omega
    | ⟨1, _⟩ => show win0_1.index t (1 : Fin 3) * 2048 + 1 * k.val = k.val; omega
    | ⟨2, _⟩ => show win0_1.index t (2 : Fin 3) * 512 + 1 * h.val = h.val; omega
  show V m c main_v2 (((cfg0.win 1).blk t).view.emb (ix3 q k h)) = _
  rw [hi, V_table, table_at _ ⟨4 * t.val + q.val, hp⟩ k h hr]

/-- The first bias's block at (0, h): the bias at `h`, at every point. -/
theorem b1Block_apply (c : Dev nD) (t : Fin cfg0.N) (z : Fin 1) (h : Fin 512) :
    (iblk m c 2 t : Vec F S1x512 .f32) (ix2 z h) = m ((c : Thread nD τ).loc main_arg2) (ix1 h) := by
  obtain ⟨-, -, -, -, -, -, e0, e1, -⟩ := idx_facts t
  have hi : ((cfg0.win 2).blk t).view.emb (ix2 z h) = (ix2 z h : S1x512.Idx) := by
    funext a; apply Fin.ext
    match a with
    | ⟨0, _⟩ => show win0_2.index t (0 : Fin 2) * 1 + 1 * z.val = z.val; omega
    | ⟨1, _⟩ => show win0_2.index t (1 : Fin 2) * 512 + 1 * h.val = h.val; omega
  show V m c main_v3 (((cfg0.win 2).blk t).view.emb (ix2 z h)) = _
  rw [hi, V_bias1, shapeCast_a_1a_apply]

/-- The second layer's weights' block: the whole matrix, at every point. -/
theorem w2Block (c : Dev nD) (t : Fin cfg0.N) :
    (iblk m c 3 t : Vec F S512x512 .f32) = m ((c : Thread nD τ).loc main_arg3) := by
  obtain ⟨-, -, -, -, -, -, -, -, e0, e1, -⟩ := idx_facts t
  funext y
  obtain ⟨a, b, rfl⟩ : ∃ (a : Fin 512) (b : Fin 512), y = ix2 a b := ⟨y 0, y 1, eq_ix2 y⟩
  have hi : ((cfg0.win 3).blk t).view.emb (ix2 a b) = (ix2 a b : S512x512.Idx) := by
    funext d; apply Fin.ext
    match d with
    | ⟨0, _⟩ => show win0_3.index t (0 : Fin 2) * 512 + 1 * a.val = a.val; omega
    | ⟨1, _⟩ => show win0_3.index t (1 : Fin 2) * 512 + 1 * b.val = b.val; omega
  show V m c main_arg3 (((cfg0.win 3).blk t).view.emb (ix2 a b)) = _
  rw [hi, V_main_arg3]

/-- The second bias's block at (0, j): the bias at `j`, at every point. -/
theorem b2Block_apply (c : Dev nD) (t : Fin cfg0.N) (z : Fin 1) (j : Fin 512) :
    (iblk m c 4 t : Vec F S1x512 .f32) (ix2 z j) = m ((c : Thread nD τ).loc main_arg4) (ix1 j) := by
  obtain ⟨-, -, -, -, -, -, -, -, -, -, e0, e1, -⟩ := idx_facts t
  have hi : ((cfg0.win 4).blk t).view.emb (ix2 z j) = (ix2 z j : S1x512.Idx) := by
    funext a; apply Fin.ext
    match a with
    | ⟨0, _⟩ => show win0_4.index t (0 : Fin 2) * 1 + 1 * z.val = z.val; omega
    | ⟨1, _⟩ => show win0_4.index t (1 : Fin 2) * 512 + 1 * j.val = j.val; omega
  show V m c main_v4 (((cfg0.win 4).blk t).view.emb (ix2 z j)) = _
  rw [hi, V_bias2, shapeCast_a_1a_apply]

/-- The third layer's weights' block: the whole matrix, at every point. -/
theorem w3Block (c : Dev nD) (t : Fin cfg0.N) :
    (iblk m c 5 t : Vec F S512x256 .f32) = m ((c : Thread nD τ).loc main_arg5) := by
  obtain ⟨-, -, -, -, -, -, -, -, -, -, -, -, e0, e1, -⟩ := idx_facts t
  funext y
  obtain ⟨a, b, rfl⟩ : ∃ (a : Fin 512) (b : Fin 256), y = ix2 a b := ⟨y 0, y 1, eq_ix2 y⟩
  have hi : ((cfg0.win 5).blk t).view.emb (ix2 a b) = (ix2 a b : S512x256.Idx) := by
    funext d; apply Fin.ext
    match d with
    | ⟨0, _⟩ => show win0_5.index t (0 : Fin 2) * 512 + 1 * a.val = a.val; omega
    | ⟨1, _⟩ => show win0_5.index t (1 : Fin 2) * 256 + 1 * b.val = b.val; omega
  show V m c main_arg5 (((cfg0.win 5).blk t).view.emb (ix2 a b)) = _
  rw [hi, V_main_arg5]

/-- The third bias's block at (0, s): the bias at `s`, at every point. -/
theorem b3Block_apply (c : Dev nD) (t : Fin cfg0.N) (z : Fin 1) (s : Fin 256) :
    (iblk m c 6 t : Vec F S1x256 .f32) (ix2 z s) = m ((c : Thread nD τ).loc main_arg6) (ix1 s) := by
  obtain ⟨-, -, -, -, -, -, -, -, -, -, -, -, -, -, e0, e1⟩ := idx_facts t
  have hi : ((cfg0.win 6).blk t).view.emb (ix2 z s) = (ix2 z s : S1x256.Idx) := by
    funext a; apply Fin.ext
    match a with
    | ⟨0, _⟩ => show win0_6.index t (0 : Fin 2) * 1 + 1 * z.val = z.val; omega
    | ⟨1, _⟩ => show win0_6.index t (1 : Fin 2) * 256 + 1 * s.val = s.val; omega
  show V m c main_v5 (((cfg0.win 6).blk t).view.emb (ix2 z s)) = _
  rw [hi, V_bias3, shapeCast_a_1a_apply]

end Cert.KernelIdeal.Blocks

end
-- ==== Proof.KernelFold.lean ====
/-
  The accumulator after the last grid point is the embedding sum.

  Point 0 stores the zero accumulator and adds its four positions; every later point adds its four positions to
  what the point before left. So after point 63 the accumulator is the sum over the 64 points of what each adds,
  and — a token in `[0, 2048)` selecting exactly one of its position's 2048 table rows — that is the sum over the
  256 positions `p = 4·t + q` of the table row `p · 2048 + x[b, p]`: the specification's embedding sum.
-/
import proofs.«409042_j76373108457716_1_alg».proof.Proof.KernelPoint
import proofs.«409042_j76373108457716_1_alg».proof.Proof.KernelBlocks
import proofs.«409042_j76373108457716_1_alg».proof.Proof.Spec
import proofs.«409042_j76373108457716_1_alg».proof.Proof.Gen.KernelIdeal.Value

noncomputable section

namespace Cert.KernelIdeal.Fold

open Cert.KernelIdeal Cert.KernelIdeal.Gen Cert.KernelIdeal.Pieces Cert.KernelIdeal.Point Cert.KernelIdeal.Blocks Cert.EmbedMlp
open Idealize.ShloMosaic Idealize.ShloMosaic.TcCoe Idealize.SL.Sem Idealize.ShloMosaic.ValueIdx

variable (m : (ℓ : Loc nD τ sig) → Buf (Elt Ideal) ℓ)

/-- The token block and the table block of a point, at their literal types. -/
abbrev tokBlk (c : Dev nD) (t : Fin cfg0.N) : Vec Ideal S4x64x1 .i32 := iblk m c 0 t
abbrev tabBlk (c : Dev nD) (t : Fin cfg0.N) : Vec Ideal S4x2048x512 .f32 := iblk m c 1 t

/-- What point `n` leaves in the accumulator over `acc`: its four positions added to the zero accumulator at the
    first point, to `acc` at every later one. -/
theorem scAt_eq (c : Dev nD) (n : ℕ) (hb : n < cfg0.N) (acc : Vec Ideal S64x512 .f32) :
    Cert.KernelIdeal.Value.scAt0_0 m c n hb acc
      = pointAcc (tokBlk m c ⟨n, hb⟩) (tabBlk m c ⟨n, hb⟩) (if n = 0 then zeroAcc else acc) := by
  have hN : n < 64 := lt_of_lt_of_eq hb N_0
  unfold Cert.KernelIdeal.Value.scAt0_0
  by_cases h0 : n % 64 = 0
  · have hn : n = 0 := by omega
    have h1 : ¬n % 64 = 63 := by omega
    rw [dif_pos h0, dif_neg h1, if_pos hn]
    exact sout_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))
  · have hn : ¬n = 0 := by omega
    by_cases h1 : n % 64 = 63
    · rw [dif_neg h0, dif_pos h1, if_neg hn]
      exact sout_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
    · rw [dif_neg h0, dif_neg h1, if_neg hn]
      exact sout_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-- What point `n` adds at an index (zero past the grid): its four positions' 0/1-weighted table entries. -/
def addend (c : Dev nD) (n : ℕ) : S64x512.Idx → EReal :=
  fun i => if h : n < cfg0.N then pointSum (tokBlk m c ⟨n, h⟩) (tabBlk m c ⟨n, h⟩) i else 0

/-- The first point leaves `0 + ` its addend. -/
theorem scAt_first (c : Dev nD) (hb : 0 < cfg0.N) (acc : Vec Ideal S64x512 .f32) (i : S64x512.Idx) :
    Cert.KernelIdeal.Value.scAt0_0 m c 0 hb acc i = (fun _ => (0 : EReal)) i + addend m c 0 i := by
  obtain ⟨b, h, rfl⟩ : ∃ (b : Fin 64) (h : Fin 512), i = ix2 b h := ⟨i 0, i 1, eq_ix2 i⟩
  rw [scAt_eq m c 0 hb acc, if_pos rfl]
  refine (pointAcc_apply (tokBlk m c ⟨0, hb⟩) (tabBlk m c ⟨0, hb⟩) zeroAcc b h).trans ?_
  rw [zeroAcc_apply]
  unfold addend
  rw [dif_pos hb]

/-- A later point leaves what it found plus its addend. -/
theorem scAt_step (c : Dev nD) (n : ℕ) (hb : n < cfg0.N) (acc : Vec Ideal S64x512 .f32) (i : S64x512.Idx) (hn : 0 < n) :
    Cert.KernelIdeal.Value.scAt0_0 m c n hb acc i = acc i + addend m c n i := by
  obtain ⟨b, h, rfl⟩ : ∃ (b : Fin 64) (h : Fin 512), i = ix2 b h := ⟨i 0, i 1, eq_ix2 i⟩
  rw [scAt_eq m c n hb acc, if_neg (by omega)]
  refine (pointAcc_apply (tokBlk m c ⟨n, hb⟩) (tabBlk m c ⟨n, hb⟩) acc b h).trans ?_
  unfold addend
  rw [dif_pos hb]

/-- THE ACCUMULATOR AFTER THE LAST POINT, at an index: the sum over the 64 points of what each adds. -/
theorem accFinal_apply (c : Dev nD) (h63 : 63 < cfg0.N) (i : S64x512.Idx) :
    (outsAt0 m c 63 h63).2 i = ∑ s ∈ Finset.range 64, addend m c s i := by
  rw [Cert.KernelIdeal.Value.soutsAt0_0_sweep m c 63 h63]
  rw [Pipeline.accAt_add_apply (fun n h => Cert.KernelIdeal.Value.scAt0_0 m c n h (VS0_0.read (Elt Ideal) VS0_0.junk))
    (Cert.KernelIdeal.Value.scAt0_0 m c) (fun _ => (0 : EReal)) (addend m c) 0 63
    (fun h i => scAt_first m c h _ i) (fun n h acc i hn _ => scAt_step m c n h acc i hn) 63 (le_refl 63)]
  simp only [Nat.zero_add, zero_add]

/-- Four consecutive terms at a time: a sum over `4 · n` naturals is the sum over `n` blocks of four. -/
theorem sum_range_four_mul (f : ℕ → EReal) : ∀ n : ℕ,
    ∑ p ∈ Finset.range (4 * n), f p = ∑ s ∈ Finset.range n, ∑ q : Fin 4, f (4 * s + q.val)
  | 0 => by simp
  | n + 1 => by
    rw [show 4 * (n + 1) = 4 * n + 1 + 1 + 1 + 1 from by ring, Finset.sum_range_succ, Finset.sum_range_succ,
      Finset.sum_range_succ, Finset.sum_range_succ, sum_range_four_mul f n, Finset.sum_range_succ _ n, Fin.sum_univ_four]
    simp only [Fin.val_zero, Fin.val_one, Fin.val_two, add_zero, add_assoc]
    rfl

/-- A token number's 0/1 weights select its one table entry. -/
theorem oneHot_sum (w : BitVec 32) (hw : w.toNat < 2048) (X : Fin 2048 → EReal) :
    ∑ k : Fin 2048, oneHot w k * X k = X ⟨w.toNat, hw⟩ := by
  rw [Finset.sum_eq_single (⟨w.toNat, hw⟩ : Fin 2048)]
  · unfold oneHot; rw [if_pos rfl, one_mul]
  · intro k _ hk
    unfold oneHot
    rw [if_neg (fun e => hk (Fin.ext e.symm)), zero_mul]
  · intro h; exact absurd (Finset.mem_univ _) h

/-- Position `p`'s table entry for batch row `b` at hidden unit `h` (zero past the 256 positions). -/
def rowTerm (c : Dev nD) (b : Fin 64) (h : Fin 512) (p : ℕ) : EReal :=
  if hp : p < 256 then
    m ((c : Thread nD τ).loc main_arg1) (ix2 (tokRow (m ((c : Thread nD τ).loc main_arg0)) b ⟨p, hp⟩) h)
  else 0

/-- For token numbers, what point `s` adds at (b, h) is the table entries of its four positions `4s … 4s + 3`. -/
theorem addend_eq (c : Dev nD) (hx : TokensInRange (m ((c : Thread nD τ).loc main_arg0))) (s : ℕ) (hs : s < 64)
    (b : Fin 64) (h : Fin 512) : addend m c s (ix2 b h) = ∑ q : Fin 4, rowTerm m c b h (4 * s + q.val) := by
  have hN : s < cfg0.N := lt_of_lt_of_eq hs N_0.symm
  unfold addend
  rw [dif_pos hN]
  unfold pointSum
  refine Finset.sum_congr rfl fun q _ => ?_
  have hp : 4 * s + q.val < 256 := by have := q.isLt; omega
  unfold rowTerm
  rw [dif_pos hp]
  show ∑ k : Fin 2048, oneHot (tokBlk m c ⟨s, hN⟩ (ix3 q b (0 : Fin 1))) k * tabBlk m c ⟨s, hN⟩ (ix3 q k h) = _
  rw [show tokBlk m c ⟨s, hN⟩ (ix3 q b (0 : Fin 1)) = _ from tokBlock_apply m c ⟨s, hN⟩ q b (0 : Fin 1) hp]
  have hw := hx b ⟨4 * s + q.val, hp⟩
  rw [oneHot_sum _ hw (fun k => tabBlk m c ⟨s, hN⟩ (ix3 q k h))]
  show tabBlk m c ⟨s, hN⟩ (ix3 q ⟨_, hw⟩ h) = _
  rw [show tabBlk m c ⟨s, hN⟩ (ix3 q ⟨_, hw⟩ h) = _ from
    tableBlock_apply m c ⟨s, hN⟩ q ⟨_, hw⟩ h (by show (4 * s + q.val) * 2048 + _ < 524288; omega)]
  refine congrArg (m ((c : Thread nD τ).loc main_arg1)) (funext fun a => Fin.ext ?_)
  match a with
  | ⟨0, _⟩ => exact (tokRow_val _ hx b ⟨4 * s + q.val, hp⟩).symm
  | ⟨1, _⟩ => rfl

/-- THE ACCUMULATOR AFTER THE LAST POINT is the embedding sum of the launch tokens and table, for token numbers. -/
theorem accFinal_eq (c : Dev nD) (hx : TokensInRange (m ((c : Thread nD τ).loc main_arg0))) (h63 : 63 < cfg0.N) :
    (outsAt0 m c 63 h63).2 = embedSum (m ((c : Thread nD τ).loc main_arg0)) (m ((c : Thread nD τ).loc main_arg1)) := by
  funext i
  obtain ⟨b, h, rfl⟩ : ∃ (b : Fin 64) (h : Fin 512), i = ix2 b h := ⟨i 0, i 1, eq_ix2 i⟩
  rw [accFinal_apply m c h63 (ix2 b h),
    Finset.sum_congr rfl (fun s hs => addend_eq m c hx s (Finset.mem_range.mp hs) b h),
    ← sum_range_four_mul (rowTerm m c b h) 64]
  show ∑ p ∈ Finset.range 256, rowTerm m c b h p = _
  rw [← Fin.sum_univ_eq_sum_range (rowTerm m c b h) 256]
  unfold embedSum
  refine Finset.sum_congr rfl fun p _ => ?_
  unfold rowTerm
  rw [dif_pos p.isLt]

end Cert.KernelIdeal.Fold

end
-- ==== Proof.KernelMlp.lean ====
/-
  The three layers the last grid point stores, read at an index: the specification's layers of the accumulator.

  Each bias arrives as a one-row matrix laid along the 64 batch rows; each matrix product, into a zero
  accumulator, is the plain sum over the 512 hidden units; `max · 0` is taken against a broadcast zero.
-/
import proofs.«409042_j76373108457716_1_alg».proof.Proof.KernelPieces
import proofs.«409042_j76373108457716_1_alg».proof.Proof.LibMatmulPlain
import proofs.«409042_j76373108457716_1_alg».proof.Proof.Spec

noncomputable section

namespace Cert.KernelIdeal.Mlp

open Cert.KernelIdeal Cert.KernelIdeal.Gen Cert.KernelIdeal.Pieces Cert.EmbedMlp
open Idealize.ShloMosaic Idealize.ShloMosaic.ValueIdx Idealize.ShloMosaic.MatmulPlain

/-- A one-row `[1, 512]` matrix laid along the batch rows reads, at (b, h), the row at h. -/
theorem row512_apply (x : Vec Ideal S1x512 .f32) (b : Fin 64) (h : Fin 512) :
    broadcastTo S64x512 (shapeCast S1x512 x Facts₀.shapeCasts_S1x512_S1x512) Facts₀.broadcasts_S1x512_S64x512 (ix2 b h)
      = x (ix2 (0 : Fin 1) h) := by
  rw [shapeCast_self]
  exact broadcastTo_apply x Facts₀.broadcasts_S1x512_S64x512 (ix2 b h) (ix2 (0 : Fin 1) h) (fun a => match a with
    | ⟨0, _⟩ => by show 0 = if (1 : Nat) = 1 then 0 else b.val; rw [if_pos rfl]
    | ⟨1, _⟩ => by show h.val = if (512 : Nat) = 1 then 0 else h.val; rw [if_neg (by decide)])

/-- A one-row `[1, 256]` matrix laid along the batch rows reads, at (b, s), the row at s. -/
theorem row256_apply (x : Vec Ideal S1x256 .f32) (b : Fin 64) (s : Fin 256) :
    broadcastTo S64x256 (shapeCast S1x256 x Facts₀.shapeCasts_S1x256_S1x256) Facts₀.broadcasts_S1x256_S64x256 (ix2 b s)
      = x (ix2 (0 : Fin 1) s) := by
  rw [shapeCast_self]
  exact broadcastTo_apply x Facts₀.broadcasts_S1x256_S64x256 (ix2 b s) (ix2 (0 : Fin 1) s) (fun a => match a with
    | ⟨0, _⟩ => by show 0 = if (1 : Nat) = 1 then 0 else b.val; rw [if_pos rfl]
    | ⟨1, _⟩ => by show s.val = if (256 : Nat) = 1 then 0 else s.val; rw [if_neg (by decide)])

/-- The first hidden layer at (b, h): `max (acc + bias) 0`. -/
theorem layer1_apply (acc : Vec Ideal S64x512 .f32) (x2 : Vec Ideal S1x512 .f32) (b : Fin 64) (h : Fin 512) :
    (truncf .bf16 (maximumf
        (addf acc (broadcastTo S64x512 (shapeCast S1x512 x2 Facts₀.shapeCasts_S1x512_S1x512) Facts₀.broadcasts_S1x512_S64x512))
        (broadcast S64x512 (FloatOps.ofBits .f32 0x00000000#32))) Facts₀.bitsLt_bf16_f32 : FVec Ideal S64x512 .bf16) (ix2 b h)
      = hidden1 acc (fun i => x2 (ix2 (0 : Fin 1) ⟨(i 0).val, (i 0).isLt⟩)) b h := by
  show max (acc (ix2 b h)
      + broadcastTo S64x512 (shapeCast S1x512 x2 Facts₀.shapeCasts_S1x512_S1x512) Facts₀.broadcasts_S1x512_S64x512 (ix2 b h))
      (Ideal.ofBits .f32 0x00000000#32) = max (acc (ix2 b h) + x2 (ix2 (0 : Fin 1) h)) 0
  rw [row512_apply, Ideal.ofBits_zero_f32]

/-- The second hidden layer at (b, j): `max (h1 · W2 + bias) 0`, the product the plain sum over the hidden units. -/
theorem layer2_apply (acc : Vec Ideal S64x512 .f32) (x2 : Vec Ideal S1x512 .f32) (x3 : Vec Ideal S512x512 .f32)
    (x4 : Vec Ideal S1x512 .f32) (b : Fin 64) (j : Fin 512) :
    (truncf .bf16 (maximumf
        (addf (matmul dot_S64x512_S512x512_S64x512_1_0_0_1_n_n none
            (truncf .bf16 (maximumf
              (addf acc (broadcastTo S64x512 (shapeCast S1x512 x2 Facts₀.shapeCasts_S1x512_S1x512) Facts₀.broadcasts_S1x512_S64x512))
              (broadcast S64x512 (FloatOps.ofBits .f32 0x00000000#32))) Facts₀.bitsLt_bf16_f32 : FVec Ideal S64x512 .bf16)
            (truncf .bf16 x3 Facts₀.bitsLt_bf16_f32 : FVec Ideal S512x512 .bf16) (constant S64x512 .f32 0x00000000#32))
          (broadcastTo S64x512 (shapeCast S1x512 x4 Facts₀.shapeCasts_S1x512_S1x512) Facts₀.broadcasts_S1x512_S64x512))
        (broadcast S64x512 (FloatOps.ofBits .f32 0x00000000#32))) Facts₀.bitsLt_bf16_f32 : FVec Ideal S64x512 .bf16) (ix2 b j)
      = hidden2 acc (fun i => x2 (ix2 (0 : Fin 1) ⟨(i 0).val, (i 0).isLt⟩)) x3
          (fun i => x4 (ix2 (0 : Fin 1) ⟨(i 0).val, (i 0).isLt⟩)) b j := by
  show max (matmul (F := Ideal) dot_S64x512_S512x512_S64x512_1_0_0_1_n_n none _ _ (constant S64x512 .f32 0x00000000#32) (ix2 b j)
      + broadcastTo S64x512 (shapeCast S1x512 x4 Facts₀.shapeCasts_S1x512_S1x512) Facts₀.broadcasts_S1x512_S64x512 (ix2 b j))
      (Ideal.ofBits .f32 0x00000000#32)
    = max ((∑ h : Fin 512, hidden1 acc (fun i => x2 (ix2 (0 : Fin 1) ⟨(i 0).val, (i 0).isLt⟩)) b h * x3 (ix2 h j))
      + x4 (ix2 (0 : Fin 1) j)) 0
  simp only [matmul]
  rw [matmul_plain_zero_apply dot_S64x512_S512x512_S64x512_1_0_0_1_n_n rfl rfl rfl rfl rfl rfl, row512_apply,
    Ideal.ofBits_zero_f32]
  refine congrArg (fun z => max (z + x4 (ix2 (0 : Fin 1) j)) 0) (Finset.sum_congr rfl fun h _ => ?_)
  rw [layer1_apply]
  rfl

/-- The last point's output block at (b, s): the specification's layers of the accumulator, the biases read off
    their one-row matrices. -/
theorem mlpOfAcc_apply (acc : Vec Ideal S64x512 .f32) (x2 : Vec Ideal S1x512 .f32) (x3 : Vec Ideal S512x512 .f32)
    (x4 : Vec Ideal S1x512 .f32) (x5 : Vec Ideal S512x256 .f32) (x6 : Vec Ideal S1x256 .f32) (b : Fin 64) (s : Fin 256) :
    mlpOfAcc acc x2 x3 x4 x5 x6 (ix2 b s)
      = mlpTail acc (fun i => x2 (ix2 (0 : Fin 1) ⟨(i 0).val, (i 0).isLt⟩)) x3
          (fun i => x4 (ix2 (0 : Fin 1) ⟨(i 0).val, (i 0).isLt⟩)) x5
          (fun i => x6 (ix2 (0 : Fin 1) ⟨(i 0).val, (i 0).isLt⟩)) (ix2 b s) := by
  show k0_pay2 acc x2 x3 x4 x5 x6 (ix2 b s) = _
  unfold k0_pay2
  dsimp only
  show matmul (F := Ideal) dot_S64x512_S512x256_S64x256_1_0_0_1_n_n none _ _ (constant S64x256 .f32 0x00000000#32) (ix2 b s)
      + broadcastTo S64x256 (shapeCast S1x256 x6 Facts₀.shapeCasts_S1x256_S1x256) Facts₀.broadcasts_S1x256_S64x256 (ix2 b s)
    = (∑ j : Fin 512, hidden2 acc (fun i => x2 (ix2 (0 : Fin 1) ⟨(i 0).val, (i 0).isLt⟩)) x3
          (fun i => x4 (ix2 (0 : Fin 1) ⟨(i 0).val, (i 0).isLt⟩)) b j * x5 (ix2 j s)) + x6 (ix2 (0 : Fin 1) s)
  simp only [matmul]
  rw [matmul_plain_zero_apply dot_S64x512_S512x256_S64x256_1_0_0_1_n_n rfl rfl rfl rfl rfl rfl, row256_apply]
  refine congrArg (fun z => z + x6 (ix2 (0 : Fin 1) s)) (Finset.sum_congr rfl fun j _ => ?_)
  rw [layer2_apply]
  rfl

end Cert.KernelIdeal.Mlp

end
-- ==== Proof.KernelValue.lean ====
/-
  The kernel's result array is the specification of its arguments, for token numbers.

  The output block is written back once, after the last grid point, and is the whole `[64, 256]` array. What the
  last point stored in it is the three layers of the finished accumulator; the accumulator is the embedding sum
  (the fold over the grid), the bias blocks are the biases and the weight blocks the weights. So the array ends
  holding `mlpOut` of the seven arguments.
-/
import proofs.«409042_j76373108457716_1_alg».proof.Proof.KernelFold
import proofs.«409042_j76373108457716_1_alg».proof.Proof.KernelMlp

noncomputable section

namespace Cert.KernelIdeal.Final

open Cert.KernelIdeal Cert.KernelIdeal.Gen Cert.KernelIdeal.Pieces Cert.KernelIdeal.Blocks Cert.KernelIdeal.Mlp
open Cert.KernelIdeal.Fold Cert.EmbedMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification of the launch contents of the seven arguments, as contents of the result array. -/
abbrev result (c : Dev nD) : Buf (Elt Ideal) ((c : Thread nD τ).loc main_v6) :=
  mlpOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The layers of an accumulator over blocks that ARE the biases (as one-row matrices) and the weights: the
    specification's layers. -/
theorem mlp_of_blocks (acc : Vec Ideal S64x512 .f32) (x2 : Vec Ideal S1x512 .f32) (x3 : Vec Ideal S512x512 .f32)
    (x4 : Vec Ideal S1x512 .f32) (x5 : Vec Ideal S512x256 .f32) (x6 : Vec Ideal S1x256 .f32)
    (e : S64x512.Idx → EReal) (b1 : S512.Idx → EReal) (W2 : S512x512.Idx → EReal) (b2 : S512.Idx → EReal)
    (W3 : S512x256.Idx → EReal) (b3 : S256.Idx → EReal)
    (hacc : acc = e) (h2 : ∀ (z : Fin 1) (h : Fin 512), x2 (ix2 z h) = b1 (ix1 h)) (h3 : x3 = W2)
    (h4 : ∀ (z : Fin 1) (j : Fin 512), x4 (ix2 z j) = b2 (ix1 j)) (h5 : x5 = W3)
    (h6 : ∀ (z : Fin 1) (s : Fin 256), x6 (ix2 z s) = b3 (ix1 s)) :
    mlpOfAcc acc x2 x3 x4 x5 x6 = mlpTail e b1 W2 b2 W3 b3 := by
  subst hacc h3 h5
  have e2 : (fun i : S512.Idx => x2 (ix2 (0 : Fin 1) ⟨(i 0).val, (i 0).isLt⟩)) = b1 :=
    funext fun i => (h2 0 _).trans (congrArg b1 (eq_ix1 i).symm)
  have e4 : (fun i : S512.Idx => x4 (ix2 (0 : Fin 1) ⟨(i 0).val, (i 0).isLt⟩)) = b2 :=
    funext fun i => (h4 0 _).trans (congrArg b2 (eq_ix1 i).symm)
  have e6 : (fun i : S256.Idx => x6 (ix2 (0 : Fin 1) ⟨(i 0).val, (i 0).isLt⟩)) = b3 :=
    funext fun i => (h6 0 _).trans (congrArg b3 (eq_ix1 i).symm)
  funext i
  obtain ⟨b, s, rfl⟩ : ∃ (b : Fin 64) (s : Fin 256), i = ix2 b s := ⟨i 0, i 1, eq_ix2 i⟩
  rw [mlpOfAcc_apply, e2, e4, e6]

/-- The output window's block index is (0, 0) at every point. -/
theorem idx7 : ∀ t : Fin cfg0.N, win0_7.index t (0 : Fin 2) = 0 ∧ win0_7.index t (1 : Fin 2) = 0 :=
  (by decide +kernel : ∀ t : Fin grid0.N, _)

/-- What the last point stores in the output block is the specification, for token numbers. -/
theorem outBlock_eq (c : Dev nD) (hx : TokensInRange (m ((c : Thread nD τ).loc main_arg0))) (t : Fin cfg0.N)
    (h0 : ¬t.val % 64 = 0) (h1 : t.val % 64 = 63) :
    (outsAt0 m c t.val t.isLt).1 = result m c := by
  have hN : t.val < 64 := lt_of_lt_of_eq t.isLt N_0
  have h63 : t.val = 63 := by omega
  -- the accumulator the point leaves is the one it stores the layers of
  have eacc : pointAcc (tokBlk m c t) (tabBlk m c t) (outsAt0 m c (t.val - 1) (Nat.lt_of_le_of_lt (Nat.sub_le _ _) t.isLt)).2
      = (outsAt0 m c t.val t.isLt).2 := by
    rw [outsAt0_C m c t h0 h1]
    dsimp only
    exact (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2).symm
  have efin : (outsAt0 m c t.val t.isLt).2
      = embedSum (m ((c : Thread nD τ).loc main_arg0)) (m ((c : Thread nD τ).loc main_arg1)) := by
    obtain ⟨n, hn⟩ := t
    obtain rfl : n = 63 := h63
    exact accFinal_eq m c hx hn
  rw [outsAt0_C m c t h0 h1]
  dsimp only
  refine (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).2).trans ?_
  exact mlp_of_blocks _ (iblk m c 2 t) (iblk m c 3 t) (iblk m c 4 t) (iblk m c 5 t) (iblk m c 6 t) _ _ _ _ _ _
    (eacc.trans efin) (b1Block_apply m c t) (w2Block m c t) (b2Block_apply m c t) (w3Block m c t) (b3Block_apply m c t)

/-- The one write-back, after the last point, writes the specification: the block is the whole array. -/
theorem flushed_eq (c : Dev nD) (hx : TokensInRange (m ((c : Thread nD τ).loc main_arg0))) (t : Fin cfg0.N)
    (hf : (cfg0.win 7).flush t = true) :
    (dats m 0 c).flushed 7 t = ((cfg0.win 7).blk t).view.read (Elt Ideal) (result m c) := by
  have hN : t.val < 64 := lt_of_lt_of_eq t.isLt N_0
  have h1 : t.val % 64 = 63 := (flush0_7 t).mp hf
  have h0 : ¬t.val % 64 = 0 := by omega
  rw [Cert.KernelIdeal.Value.flushed7, outBlock_eq m c hx t h0 h1]
  obtain ⟨i0, i1⟩ := idx7 t
  funext j
  show result m c _ = result m c (((cfg0.win 7).blk t).view.emb j)
  refine congrArg (result m c) (funext fun a => Fin.ext ?_)
  match a with
  | ⟨0, _⟩ => show (j 0).val = win0_7.index t (0 : Fin 2) * 64 + 1 * (j 0).val; rw [i0]; omega
  | ⟨1, _⟩ => show (j 1).val = win0_7.index t (1 : Fin 2) * 256 + 1 * (j 1).val; rw [i1]; omega

/-- Every index of the result array is in the block the last point writes back. -/
theorem covered (i : S64x256.Idx) :
    ∃ t : Fin cfg0.N, (cfg0.win 7).flush t = true ∧ i ∈ ((cfg0.win 7).blk t).view.set := by
  have h63 : 63 < cfg0.N := lt_of_lt_of_eq (by decide : 63 < 64) N_0.symm
  refine ⟨⟨63, h63⟩, (flush0_7 ⟨63, h63⟩).mpr rfl, ?_⟩
  obtain ⟨i0, i1⟩ := idx7 ⟨63, h63⟩
  show i ∈ ((View.whole main_v6).slice (win0_7.rect ⟨63, h63⟩)).set
  rw [View.set_slice_whole, Rect.mem_set_unit]
  intro a
  have b0 : (i 0 : Nat) < 64 := (i 0).isLt
  have b1 : (i 1 : Nat) < 256 := (i 1).isLt
  match a with
  | ⟨0, _⟩ =>
    show win0_7.index ⟨63, h63⟩ (0 : Fin 2) * 64 ≤ (i 0 : Nat) ∧ (i 0 : Nat) < win0_7.index ⟨63, h63⟩ (0 : Fin 2) * 64 + 64
    rw [i0]; omega
  | ⟨1, _⟩ =>
    show win0_7.index ⟨63, h63⟩ (1 : Fin 2) * 256 ≤ (i 1 : Nat) ∧ (i 1 : Nat) < win0_7.index ⟨63, h63⟩ (1 : Fin 2) * 256 + 256
    rw [i1]; omega

/-- THE RESULT ARRAY after the run is the specification of the arguments, for token numbers. -/
theorem final (c : Dev nD) (hx : TokensInRange (m ((c : Thread nD τ).loc main_arg0))) :
    (dats m 0 c).arrAt 7 cfg0.N = result m c :=
  (dats m 0 c).arrAt_eq_of_cover 7 (result m c) (flushed_eq m c hx) covered

/-- The run, read: the result array at the specification, the arguments unchanged. -/
theorem run (hx : ∀ c : Dev nD, TokensInRange (m ((c : Thread nD τ).loc main_arg0))) :
    θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hx c)), (h c).2⟩)
    (Cert.KernelIdeal.Value.run_blocks m ρ)

end Cert.KernelIdeal.Final

end
-- ==== Proof.lean ====
/-
  The kernel computes a token embedding by position followed by three dense layers. For every batch row it sums,
  over the 256 positions, one row of the table `W1` — row `p · 2048 + x[b, p]` — and then applies
  `max (· + b1) 0`, `max (· W2 + b2) 0` and `· W3 + b3`. The kernel forms the sum as 64 grid points of four positions
  each, every position a 0/1 matrix (token == k) times the position's 2048 table rows, accumulated in a buffer carried
  across the grid; the reference gathers the rows and reduces. Over the extended reals both are the same function
  of the arguments whenever every token lies in `[0, 2048)`, which the precondition says: a 0/1 weight selects its
  one row (`0 · a = 0` and `1 · a = a` for every extended real), and regrouping a sum is free. No finiteness of
  the float inputs is used.

  The three frames are the generated ones (the reference's its generated run with the result dropped); no operation
  was rewritten by the ideal pass; the algebraic claim sets the kernel's run and the reference's run side by side,
  both ending at `Cert.EmbedMlp.mlpOut` of the launch arguments.
-/
import proofs.«409042_j76373108457716_1_alg».proof.Defs
import proofs.«409042_j76373108457716_1_alg».proof.Proof.Gen.Kernel
import proofs.«409042_j76373108457716_1_alg».proof.Proof.Gen.Kernel.Skeleton
import proofs.«409042_j76373108457716_1_alg».proof.Proof.Gen.Kernel.Launch
import proofs.«409042_j76373108457716_1_alg».proof.Proof.Gen.Kernel.Points
import proofs.«409042_j76373108457716_1_alg».proof.Proof.Gen.Kernel.Frame
import proofs.«409042_j76373108457716_1_alg».proof.Proof.Gen.KernelIdeal
import proofs.«409042_j76373108457716_1_alg».proof.Proof.Gen.KernelIdeal.Skeleton
import proofs.«409042_j76373108457716_1_alg».proof.Proof.Gen.KernelIdeal.Launch
import proofs.«409042_j76373108457716_1_alg».proof.Proof.Gen.KernelIdeal.Points
import proofs.«409042_j76373108457716_1_alg».proof.Proof.Gen.KernelIdeal.Frame
import proofs.«409042_j76373108457716_1_alg».proof.Proof.Gen.ReferenceIdeal
import proofs.«409042_j76373108457716_1_alg».proof.Proof.Gen.Pre_finite_inputs
import proofs.«409042_j76373108457716_1_alg».proof.Proof.Gen.KernelIdeal.Value
import proofs.«409042_j76373108457716_1_alg».proof.Proof.Gen.ReferenceIdeal.Run
import proofs.«409042_j76373108457716_1_alg».proof.Proof.Gen.ReferenceIdeal.Read
import proofs.«409042_j76373108457716_1_alg».proof.Proof.PreRange
import proofs.«409042_j76373108457716_1_alg».proof.Proof.RefValue
import proofs.«409042_j76373108457716_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Where the precondition holds the tokens are token numbers; then the kernel's result array ends at the
    specification of its arguments (the fold over the grid), and the reference's at the same specification of
    arguments that agree. -/
theorem algebraic : Cert.algebraic_KernelIdeal_ReferenceIdeal := by
  intro m ρ m' ρ' hpre hagree
  have hx : ∀ c : Dev Cert.KernelIdeal.nD, Cert.EmbedMlp.TokensInRange
      (m ((c.tc : Thread Cert.KernelIdeal.nD Cert.KernelIdeal.τ).loc Cert.KernelIdeal.main_arg0)) :=
    fun c => Cert.EmbedMlp.tokensInRange_of_pre _ _ _ _ _ _ _ (hpre c)
  refine ⟨fun c => Cert.KernelIdeal.Final.result m c, Cert.KernelIdeal.Final.run m ρ hx, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v26_eq, a0, a1, a2, a3, a4, a5, a6]
  exact Cert.EmbedMlp.ref_is_spec _ _ _ _ _ _ _ (hx c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
